-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S64x512x1024 .f32) (main_arg1 : FVec F S1x1024 .f32) (main_arg2 : FVec F S1x1024 .f32) (main_arg3 : FVec F S1024x1024 .f32) (main_arg4 : FVec F S1024 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S64x512x1024 : Shape := ⟨3, ![64, 512, 1024]⟩
abbrev S1x1024 : Shape := ⟨2, ![1, 1024]⟩
abbrev S1024x1024 : Shape := ⟨2, ![1024, 1024]⟩
abbrev S1024 : Shape := ⟨1, ![1024]⟩
abbrev S8x8x1024 : Shape := ⟨3, ![8, 8, 1024]⟩
abbrev S8x256x1024 : Shape := ⟨3, ![8, 256, 1024]⟩
abbrev S1x8x1024 : Shape := ⟨3, ![1, 8, 1024]⟩
abbrev S8x256 : Shape := ⟨2, ![8, 256]⟩
abbrev S8x256x1 : Shape := ⟨3, ![8, 256, 1]⟩
abbrev S2048x1024 : Shape := ⟨2, ![2048, 1024]⟩
abbrev S1x2048 : Shape := ⟨2, ![1, 2048]⟩
abbrev S8x2048 : Shape := ⟨2, ![8, 2048]⟩
abbrev S8x1024 : Shape := ⟨2, ![8, 1024]⟩
abbrev S8x1 : Shape := ⟨2, ![8, 1]⟩
abbrev S64x1x1024 : Shape := ⟨3, ![64, 1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S64x512x1024, .f32⟩
  | .hbm, ⟨1, _⟩ => ⟨S1x1024, .f32⟩
  | .hbm, ⟨2, _⟩ => ⟨S1x1024, .f32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S8x8x1024, .f32⟩
  | .hbm, ⟨7, _⟩ => ⟨S64x1x1024, .f32⟩
  | .local _ .vmem, ⟨0, _⟩ => ⟨S8x256x1024, .f32⟩
  | .local _ .vmem, ⟨1, _⟩ => ⟨S8x256x1024, .f32⟩
  | .local _ .vmem, ⟨2, _⟩ => ⟨S8x256x1024, .f32⟩
  | .local _ .vmem, ⟨3, _⟩ => ⟨S8x256x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1x1024, .f32⟩
  | .local _ .vmem, ⟨8, _⟩ => ⟨S1x8x1024, .f32⟩
  | .local _ .vmem, ⟨9, _⟩ => ⟨S1x8x1024, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1024_S1x1024 : S1024.ShapeCasts S1x1024
  inb_S8x256x1024_S8x256x1024_0_0_0 : ∀ a, (![0, 0, 0] : Fin 3 → Nat) a + S8x256x1024.size a ≤ S8x256x1024.size a
  h_S8x256x1024 : 0 < S8x256x1024.numel
  reduces_S8x256x1024_S8x256 : S8x256x1024.Reduces [2] S8x256
  shapeCasts_S8x256_S8x256x1 : S8x256.ShapeCasts S8x256x1
  shapeCasts_S8x256x1024_S2048x1024 : S8x256x1024.ShapeCasts S2048x1024
  shapeCasts_S8x256x1_S1x2048 : S8x256x1.ShapeCasts S1x2048
  iota_S8x2048_d1_w32 : S8x2048.Iotas .tc 32 [1]
  natLt_1_32 : 1 < 32
  iota_S8x2048_d0_w32 : S8x2048.Iotas .tc 32 [0]
  shapeCasts_S1x2048_S1x2048 : S1x2048.ShapeCasts S1x2048
  broadcasts_S1x2048_S8x2048 : S1x2048.Broadcasts S8x2048
  reduces_S8x256x1_S8x1 : S8x256x1.Reduces [1] S8x1
  broadcasts_S8x1_S8x1024 : S8x1.Broadcasts S8x1024
  inb_S1x1024_S1x1024_0_0 : ∀ a, (![0, 0] : Fin 2 → Nat) a + S1x1024.size a ≤ S1x1024.size a
  h_S1x1024 : 0 < S1x1024.numel
  broadcasts_S1x1024_S8x1024 : S1x1024.Broadcasts S8x1024
  inb_S1024x1024_S1024x1024_0_0 : ∀ a, (![0, 0] : Fin 2 → Nat) a + S1024x1024.size a ≤ S1024x1024.size a
  h_S1024x1024 : 0 < S1024x1024.numel
  shapeCasts_S1x1024_S1x1024 : S1x1024.ShapeCasts S1x1024
  inb_S1x8x1024_S1x8x1024_0_0_0 : ∀ a, (![0, 0, 0] : Fin 3 → Nat) a + S1x8x1024.size a ≤ S1x8x1024.size a
  h_S1x8x1024 : 0 < S1x8x1024.numel
  shapeCasts_S1x8x1024_S8x1024 : S1x8x1024.ShapeCasts S8x1024
  shapeCasts_S8x1024_S1x8x1024 : S8x1024.ShapeCasts S1x8x1024
  shapeCasts_S8x8x1024_S64x1x1024 : S8x8x1024.ShapeCasts S64x1x1024
  dot_S8x2048_S2048x1024_S8x1024_1_0_0_1_n_n_wf : DotDims.WF S8x2048 S2048x1024 S8x1024 [1] [0] [0] [1] [] []
  dot_S8x1024_S1024x1024_S8x1024_1_0_0_1_n_n_wf : DotDims.WF S8x1024 S1024x1024 S8x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S64x512x1024.size a
  hwx0_0 : ∀ i : grid0.Coords, EltTy.bits .f32 = 32 ∨ (Rect.block (s := S64x512x1024) S8x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x1024.size a ≤ S64x512x1024.size a
  hwx0_1 : ∀ i : grid0.Coords, EltTy.bits .f32 = 32 ∨ (Rect.block (s := S64x512x1024) S8x256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x1024.size a ≤ S8x8x1024.size a
  hwx0_6 : ∀ i : grid0.Coords, EltTy.bits .f32 = 32 ∨ (Rect.block (s := S8x8x1024) S1x8x1024.size (cc0_transform_6 i) (hinb0_6 i)).WholeWords (EltTy.packing .f32)

variable [Facts₀]

def dot_S8x2048_S2048x1024_S8x1024_1_0_0_1_n_n : DotDims S8x2048 S2048x1024 S8x1024 where
  lhsContracting := [1]
  rhsContracting := [0]
  lhsNonContracting := [0]
  rhsNonContracting := [1]
  lhsBatch := []
  rhsBatch := []
  wf := dot_S8x2048_S2048x1024_S8x1024_1_0_0_1_n_n_wf
def dot_S8x1024_S1024x1024_S8x1024_1_0_0_1_n_n : DotDims S8x1024 S1024x1024 S8x1024 where
  lhsContracting := [1]
  rhsContracting := [0]
  lhsNonContracting := [0]
  rhsNonContracting := [1]
  lhsBatch := []
  rhsBatch := []
  wf := dot_S8x1024_S1024x1024_S8x1024_1_0_0_1_n_n_wf

abbrev win0_0 : Pipeline.Window sig grid0 :=
  Pipeline.Window.ofSpec (Memref.whole main_arg0) S8x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x8x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S1x1024 : Shape := ⟨2, ![1, 1024]⟩
abbrev S1024x1024 : Shape := ⟨2, ![1024, 1024]⟩
abbrev S1024 : Shape := ⟨1, ![1024]⟩
abbrev S64x1x1024 : Shape := ⟨3, ![64, 1, 1024]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S64x512x1024, .f32⟩
  | .hbm, ⟨1, _⟩ => ⟨S1x1024, .f32⟩
  | .hbm, ⟨2, _⟩ => ⟨S1x1024, .f32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S64x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v42 : BitVec 1 := Scalar.cmpi .eq arg1 c1_i32
  let v43 : BitVec 32 := Scalar.extui v42
  let c0_i32_17 : BitVec 32 := 0#32
  let v44 : BitVec 1 := Scalar.cmpi .ne v43 c0_i32_17
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  broadcasts_S1x1024_S256x1024 : S1x1024.Broadcasts S256x1024
  iota_S256x1024_d0_w32 : S256x1024.Iotas .tc 32 [0]
  reduces_S256x1024_S1024 : S256x1024.Reduces [0] S1024
  inb_S1024x1024_S1024x1024_0_0 : ∀ a, (![0, 0] : Fin 2 → Nat) a + S1024x1024.size a ≤ S1024x1024.size a
  h_S1024x1024 : 0 < S1024x1024.numel
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  dot_S1x1024_S1024x1024_S1x1024_1_0_0_1_n_n_wf : DotDims.WF S1x1024 S1024x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S64x512x1024.size a
  hwx0_0 : ∀ i : grid0.Coords, EltTy.bits .f32 = 32 ∨ (Rect.block (s := S64x512x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S64x1x1024.size a
  hwx0_5 : ∀ i : grid0.Coords, EltTy.bits .f32 = 32 ∨ (Rect.block (s := S64x1x1024) S1x1x1024.size (cc0_transform_5 i) (hinb0_5 i)).WholeWords (EltTy.packing .f32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== Proof.KBodyB.lean ====
/-
  The kernel's body and its proof data, at any float instance.

  One grid point handles a tile of eight batches: it loads the two half-sequence blocks of the context (two windows on
  ONE array), the gain, the bias, the weight matrix and the weight bias, and stores one [1, 8, 1024] block of the result.
  The stored value is a pure function of the six loaded blocks (kpay). Nothing is carried from point to point, so after
  the body each input's staging buffer still holds its block and the output's holds that function of the blocks.
-/
import proofs.«152959_g2000505949230300_pallasbulk_1065_16_alg».proof.Proof.Gen.Kernel.Launch
import proofs.«152959_g2000505949230300_pallasbulk_1065_16_alg».proof.Proof.Gen.Kernel.Skeleton
import proofs.«152959_g2000505949230300_pallasbulk_1065_16_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them, and the windows' blocks -/

/-- Core c's buffers when the region is entered: after the one host operation before it (the weight bias reshaped). -/
abbrev V (c : Dev nD) (b : Ref sig .tc) : Buf (Elt F) ((c : Thread nD τ).loc b) := StableHlo.after hostOps0 (fun b => m (c, b)) b

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The stored value as one function of the loaded blocks -/

/-- What the body stores, from the six loaded blocks: the first half's statistics and pooled tile, the second half's,
    their sum scaled, gain and bias applied, the product with the weight matrix, the weight bias added. -/
def kpay (x0 x1 : Vec F S8x256x1024 .f32) (xg xb : Vec F S1x1024 .f32) (xw : Vec F S1024x1024 .f32) (xwb : Vec F S1x1024 .f32) :
    FVec F S1x8x1024 .f32 :=
  k0_pay1 (k0_pay7 (k0_pay2 x0) (k0_pay3 x0) (k0_pay4 x0) (k0_pay5 x0) k0_pay6) (k0_pay8 x1) (k0_pay9 x1) (k0_pay10 x1) (k0_pay11 x1)
    (iota .tc S8x2048 32 [1] iota_S8x2048_d1_w32) k0_pay12 k0_pay13 k0_pay14 xg xb xw xwb

abbrev rIn : Rect S8x256x1024 := Rect.unit (s := S8x256x1024) ![0, 0, 0] S8x256x1024.size inb_S8x256x1024_S8x256x1024_0_0_0
abbrev rVec : Rect S1x1024 := Rect.unit (s := S1x1024) ![0, 0] S1x1024.size inb_S1x1024_S1x1024_0_0
abbrev rMat : Rect S1024x1024 := Rect.unit (s := S1024x1024) ![0, 0] S1024x1024.size inb_S1024x1024_S1024x1024_0_0
abbrev rOut : Rect S1x8x1024 := Rect.unit (s := S1x8x1024) ![0, 0, 0] S1x8x1024.size inb_S1x8x1024_S1x8x1024_0_0_0

/-- The output window's staging buffer after the body: its one store, covering the buffer. -/
def out0_6 (x0 x1 : Vec F S8x256x1024 .f32) (x2 x3 : Vec F S1x1024 .f32) (x4 : Vec F S1024x1024 .f32) (x5 : Vec F S1x1024 .f32) :
    Vec F S1x8x1024 .f32 :=
  View.canon [⟨rOut, kpay (View.ld x0 rIn) (View.ld x1 rIn) (View.ld x2 rVec) (View.ld x3 rVec) (View.ld x4 rMat) (View.ld x5 rVec)⟩]

/-! ## The proof data -/

/-- After the body at point t each input's buffer holds its block and the output's holds out0_6 of the blocks; the two
    context windows hold one half each of their shared array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_6 (c : Dev nD) (t : Fin cfg0.N) :
    (dats m 0 c).after 6 t = out0_6 (iblk m c 0 t) (iblk m c 1 t) (iblk m c 2 t) (iblk m c 3 t) (iblk m c 4 t) (iblk m c 5 t) := by
  dsimp only [dats]

/-! ## What each input's buffer holds when the body runs

An input window's block index moves only when the pipeline fetches, no input window is cut at its array's end, and none
is ever idle; the body leaves each input block where it found it. So whether or not a point fetches a window, the body
finds that window's block of the array in its buffer. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- A fetch of window w at point t lands the block iblk names: both read the same block of the same array. -/
theorem fetched_eq_iblk (c : Dev nD) (w : Fin cfg0.W) (t : Fin cfg0.N) : (dats m 0 c).blockOf w t = iblk m c w t := by
  unfold Dat.blockOf iblk; rw [A_eq]

/-- The first half-sequence block of the context. -/
theorem before0_0 (c : Dev nD) (t : Fin cfg0.N) (d) : (dats m 0 c).before 0 t d = iblk m c 0 t := by
  have hk : ∀ s, (cfg0.win 0).cut (cfg0.grid.coords s) ((dats m 0 c).after 0 s) = (dats m 0 c).blockOf 0 s := fun s => by
    rw [after0_0, fetched_eq_iblk]
  rw [(dats m 0 c).before_in_eq_fetched 0 rfl (fun _ => rfl) (fun _ _ _ => rfl) hk t d]
  unfold Dat.fetched; rw [fetched_eq_iblk]; rfl

/-- The second half-sequence block of the context (the same array, the other half of the sequence axis). -/
theorem before0_1 (c : Dev nD) (t : Fin cfg0.N) (d) : (dats m 0 c).before 1 t d = iblk m c 1 t := by
  have hk : ∀ s, (cfg0.win 1).cut (cfg0.grid.coords s) ((dats m 0 c).after 1 s) = (dats m 0 c).blockOf 1 s := fun s => by
    rw [after0_1, fetched_eq_iblk]
  rw [(dats m 0 c).before_in_eq_fetched 1 rfl (fun _ => rfl) (fun _ _ _ => rfl) hk t d]
  unfold Dat.fetched; rw [fetched_eq_iblk]; rfl

/-- The gain: fetched at the first point only, found unchanged at the others. -/
theorem before0_2 (c : Dev nD) (t : Fin cfg0.N) (d) : (dats m 0 c).before 2 t d = iblk m c 2 t := by
  have hk : ∀ s, (cfg0.win 2).cut (cfg0.grid.coords s) ((dats m 0 c).after 2 s) = (dats m 0 c).blockOf 2 s := fun s => by
    rw [after0_2, fetched_eq_iblk]
  rw [(dats m 0 c).before_in_eq_fetched 2 rfl (fun _ => rfl) (fun _ _ _ => rfl) hk t d]
  unfold Dat.fetched; rw [fetched_eq_iblk]; rfl

/-- The bias. -/
theorem before0_3 (c : Dev nD) (t : Fin cfg0.N) (d) : (dats m 0 c).before 3 t d = iblk m c 3 t := by
  have hk : ∀ s, (cfg0.win 3).cut (cfg0.grid.coords s) ((dats m 0 c).after 3 s) = (dats m 0 c).blockOf 3 s := fun s => by
    rw [after0_3, fetched_eq_iblk]
  rw [(dats m 0 c).before_in_eq_fetched 3 rfl (fun _ => rfl) (fun _ _ _ => rfl) hk t d]
  unfold Dat.fetched; rw [fetched_eq_iblk]; rfl

/-- The weight matrix. -/
theorem before0_4 (c : Dev nD) (t : Fin cfg0.N) (d) : (dats m 0 c).before 4 t d = iblk m c 4 t := by
  have hk : ∀ s, (cfg0.win 4).cut (cfg0.grid.coords s) ((dats m 0 c).after 4 s) = (dats m 0 c).blockOf 4 s := fun s => by
    rw [after0_4, fetched_eq_iblk]
  rw [(dats m 0 c).before_in_eq_fetched 4 rfl (fun _ => rfl) (fun _ _ _ => rfl) hk t d]
  unfold Dat.fetched; rw [fetched_eq_iblk]; rfl

/-- The weight bias (the reshaped host array). -/
theorem before0_5 (c : Dev nD) (t : Fin cfg0.N) (d) : (dats m 0 c).before 5 t d = iblk m c 5 t := by
  have hk : ∀ s, (cfg0.win 5).cut (cfg0.grid.coords s) ((dats m 0 c).after 5 s) = (dats m 0 c).blockOf 5 s := fun s => by
    rw [after0_5, fetched_eq_iblk]
  rw [(dats m 0 c).before_in_eq_fetched 5 rfl (fun _ => rfl) (fun _ _ _ => rfl) hk t d]
  unfold Dat.fetched; rw [fetched_eq_iblk]; rfl

/-! ## The one store fills the output buffer -/

/-- The store's rectangle is the whole [1, 8, 1024] buffer, so whatever is stored through it covers every index. -/
theorem cover_out (p : Vec F S1x8x1024 .f32) (y : S1x8x1024.Idx) :
    ∃ pc ∈ ([⟨rOut, p⟩] : List (View.Piece (Elt F) S1x8x1024 .f32)), y ∈ pc.1.set :=
  View.cover_of_tiled [⟨rOut, p⟩] S1x8x1024.size (by rfl) y

/-! ## The body on any six blocks -/

set_option maxHeartbeats 1000000 in
/-- On whole staging buffers — the six inputs' at read contents x0 … x5, the output's at anything — the kernel function
    runs to any continuation that takes the inputs back as they were and the output at out0_6 of the six: each input
    is loaded whole and never written; the output is loaded once (the value is not used) and then stored once through
    the covering rectangle, so what it held before does not matter. -/
theorem prenorm_pool_triple (c : Dev nD) (E : Set ℕ) (i : grid0.Coords)
    (aL : Memref sig .tc .vmem S8x256x1024 .f32) (hL : aL.IsWhole) (aR : Memref sig .tc .vmem S8x256x1024 .f32) (hR : aR.IsWhole)
    (aG : Memref sig .tc .vmem S1x1024 .f32) (hG : aG.IsWhole) (aB : Memref sig .tc .vmem S1x1024 .f32) (hB : aB.IsWhole)
    (aW : Memref sig .tc .vmem S1024x1024 .f32) (hW : aW.IsWhole) (aWb : Memref sig .tc .vmem S1x1024 .f32) (hWb : aWb.IsWhole)
    (aO : Memref sig .tc .vmem S1x8x1024 .f32) (hO : aO.IsWhole)
    (x0 x1 : Vec F S8x256x1024 .f32) (x2 x3 : Vec F S1x1024 .f32) (x4 : Vec F S1024x1024 .f32) (x5 : Vec F S1x1024 .f32)
    (K : PUnit → sProp 𝕄) :
    iprop(owns (c : Thread nD τ) aL fullShare x0 ∗ owns (c : Thread nD τ) aR fullShare x1 ∗ owns (c : Thread nD τ) aG fullShare x2
        ∗ owns (c : Thread nD τ) aB fullShare x3 ∗ owns (c : Thread nD τ) aW fullShare x4 ∗ owns (c : Thread nD τ) aWb fullShare x5
        ∗ (∃ d, owns (c : Thread nD τ) aO fullShare d)
        ∗ (iprop(owns (c : Thread nD τ) aL fullShare x0 ∗ owns (c : Thread nD τ) aR fullShare x1 ∗ owns (c : Thread nD τ) aG fullShare x2
            ∗ owns (c : Thread nD τ) aB fullShare x3 ∗ owns (c : Thread nD τ) aW fullShare x4 ∗ owns (c : Thread nD τ) aWb fullShare x5
            ∗ owns (c : Thread nD τ) aO fullShare (out0_6 x0 x1 x2 x3 x4 x5)) -∗ K ⟨⟩))
      ⊢ wp frame (wpE (defs₀ (F := F)) Variants.none c none) E
          (cc0__prenorm_pool_kernel i aL hL aR hR aG hG aB hB aW hW aWb hWb aO hO) K := by
  sl_unfold [cc0__prenorm_pool_kernel]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, Hk⟩
  subst e0 e1 e2 e3 e4 e5
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  iexists _; isplitr
  swap
  · iexact H6
  ipureintro
  exact View.read_writes_eq_canon _ _ _ (cover_out _)

/-! ## The body at a grid point

The pipeline calls the kernel function at point t on each window's current staging buffer. What it hands over and what it
wants back are stated here window by window, so that the obligation is one application of the triple above at the
point's six blocks. -/

/-- What the body is handed at point t: the invariant, what the core owes, and each window's current buffer at what the
    point finds there (for the output: anything). -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it gives back: the same invariant and debt (nothing is carried, nothing signalled) and each buffer at what the
    proof data say the body leaves. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At any point the six input buffers hold the point's blocks, so the triple applies at those blocks; the invariant and
    the debt pass through untouched. -/
theorem sound_body (c : Dev nD) (t : Fin cfg0.N) :
    pointPre m c t ⊢ wp frame (wpE (defs₀ (F := F)) Variants.none c none) Set.univ (bodyAt0 t) (fun _ => pointPost m c t) := by
  unfold pointPre pointPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (prenorm_pool_triple c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KLaunchB.lean ====
/-
  The kernel's run, at any float instance: @main is one host operation (the weight bias reshaped), the region, one host
  operation (the result reshaped). Between them the core holds every array of @main whole; at the region's entry the
  context array's share is halved between the two windows that read it, and joined again at the exit; the other arrays
  go to their windows whole. The run ends with the reshaped result of the region's output array as the write-backs left
  it, and every argument as launched.
-/
import proofs.«152959_g2000505949230300_pallasbulk_1065_16_alg».proof.Proof.KBodyB
import Idealize.ShloMosaic.Lib.Pipeline.Regions
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace LaunchRun

/-! ## The seven windows' arrays and the six buffers behind them, one by one

Windows 0 and 1 read one array, the context: the proof data gives window 0 the left half of its share and window 1 the
right half. Windows 2 to 5 read an array each, whole; window 6, the output, writes its array and holds it whole. -/

/-- The windows' arrays at contents G, written out: the context array twice, at the two halves of its share. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_arg2) ↦{fullShare} G 3)
          ∗ (((c : Thread nD τ).loc main_arg3) ↦{fullShare} G 4) ∗ (((c : Thread nD τ).loc main_v0) ↦{fullShare} G 5)
          ∗ (((c : Thread nD τ).loc main_v1) ↦{fullShare} G 6)) := by
  unfold Dat.arrays
  rw [bigSep_W0]
  -- every window's array is a whole buffer (windows 0 and 1 name the same one: one rewrite serves both)
  rw [(arr_whole0 0).set_eq_univ, (arr_whole0 2).set_eq_univ, (arr_whole0 3).set_eq_univ,
    (arr_whole0 4).set_eq_univ, (arr_whole0 5).set_eq_univ, (arr_whole0 6).set_eq_univ]
  rfl

/-- The distinct buffers behind the windows' arrays, each whole at contents W: six of them. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_arg3) ↦{fullShare} W main_arg3)
          ∗ (((c : Thread nD τ).loc main_v0) ↦{fullShare} W main_v0) ∗ (((c : Thread nD τ).loc main_v1) ↦{fullShare} W main_v1)) := by
  unfold Pipeline.arrBufs
  exact bigSep_eq_bigSepL_of_eq [main_arg0, main_arg1, main_arg2, main_arg3, main_v0, main_v1] (by decide) (by decide) _

/-- At the entry the six buffers make the seven windows' arrays at their entry contents: the context array's full share
    is its left half and its right half, both at the same contents; every other buffer goes to its one window. -/
theorem entry_arrays (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [show ((dats m 0 c).arrAt · 0) = fun w => V m c (Pipeline.arrRef spec0 w) from funext (A_eq m c)]
  rw [arrBufs_chain, arrays_chain]
  iintro ⟨H0, H1, H2, H3, H5, H6⟩
  ihave H0 := (pointsTo_share (PosShare.mem_left_op_right fullShare)).1 $$ H0
  icases H0 with ⟨H0a, H0b⟩
  isplitl [H0a]; · iexact H0a
  isplitl [H0b]; · iexact H0b
  isplitl [H1]; · iexact H1
  isplitl [H2]; · iexact H2
  isplitl [H3]; · iexact H3
  isplitl [H5]; · iexact H5
  iexact H6

/-! ## The buffers between the items of @main -/

/-- Core c's buffers at launch. -/
abbrev W0 (c : Dev nD) : Valuation τ sig (Elt F) := fun b => m (c, b)
/-- After the reshape of the weight bias: what the region is entered from (the body's V, at every buffer). -/
abbrev W1 (c : Dev nD) : Valuation τ sig (Elt F) := StableHlo.after hostOps0 (W0 m c)
/-- At the region's exit: the output array at what the eight write-backs leave, every other buffer as entered. -/
def W2 (c : Dev nD) : Valuation τ sig (Elt F) :=
  Function.update (W1 m c) (Proc.devRef .tc main_v1) ((dats m 0 c).arrAt 6 cfg0.N)
/-- After the reshape of the result. -/
abbrev W3 (c : Dev nD) : Valuation τ sig (Elt F) := StableHlo.after hostOps1 (W2 m c)

theorem W2_main_v1 (c : Dev nD) : W2 m c (Proc.devRef .tc main_v1) = (dats m 0 c).arrAt 6 cfg0.N := by
  unfold W2; exact Function.update_self _ _ _

theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) _ _

/-- Each window's array after the last point is what W2 holds there: an input array is never written, so it is as
    entered; the output's is the fold of the write-backs. -/
theorem arrAtN_eq (c : Dev nD) : ∀ w : Fin cfg0.W, (dats m 0 c).arrAt w cfg0.N = W2 m c (Proc.devRef .tc (Pipeline.arrRef spec0 w))
  | ⟨0, _⟩ => ((dats m 0 c).arrAt_in 0 rfl _).trans ((A_eq m c 0).trans (W2_of_ne m c main_arg0 (by decide)).symm)
  | ⟨1, _⟩ => ((dats m 0 c).arrAt_in 1 rfl _).trans ((A_eq m c 1).trans (W2_of_ne m c main_arg0 (by decide)).symm)
  | ⟨2, _⟩ => ((dats m 0 c).arrAt_in 2 rfl _).trans ((A_eq m c 2).trans (W2_of_ne m c main_arg1 (by decide)).symm)
  | ⟨3, _⟩ => ((dats m 0 c).arrAt_in 3 rfl _).trans ((A_eq m c 3).trans (W2_of_ne m c main_arg2 (by decide)).symm)
  | ⟨4, _⟩ => ((dats m 0 c).arrAt_in 4 rfl _).trans ((A_eq m c 4).trans (W2_of_ne m c main_arg3 (by decide)).symm)
  | ⟨5, _⟩ => ((dats m 0 c).arrAt_in 5 rfl _).trans ((A_eq m c 5).trans (W2_of_ne m c main_v0 (by decide)).symm)
  | ⟨6, _⟩ => (W2_main_v1 m c).symm

/-- At the exit the seven windows' arrays make the six buffers at W2: the two halves of the context array's share hold
    the same contents again and join to the full share. -/
theorem exit_arrays (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => W2 m c (Proc.devRef .tc b)) := by
  rw [show ((dats m 0 c).arrAt · cfg0.N) = fun w => W2 m c (Proc.devRef .tc (Pipeline.arrRef spec0 w)) from funext (arrAtN_eq m c)]
  rw [arrBufs_chain, arrays_chain]
  iintro ⟨H0a, H0b, H1, H2, H3, H5, H6⟩
  ihave H0 := (pointsTo_share (PosShare.mem_left_op_right fullShare)).2 $$ [H0a H0b]
  · isplitl [H0a]; · iexact H0a
    iexact H0b
  isplitl [H0]; · iexact H0
  isplitl [H1]; · iexact H1
  isplitl [H2]; · iexact H2
  isplitl [H3]; · iexact H3
  isplitl [H5]; · iexact H5
  iexact H6

/-- ENTRY, the buffers' part: every unscoped buffer at the entry contents is the windows' arrays at their entry contents
    and the two buffers no window names (the weight bias before its reshape, the result's reshape). -/
theorem held_entry (c : Dev nD) :
    (StableHlo.held (c : Thread nD τ) (Pipeline.ucRefs τ sig) (W1 m c) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  rw [← Pipeline.unscopedBufs_held c (W1 m c), Pipeline.unscopedBufs_split₀ cfgs 0 winFacts₀0.arr_unscoped c]
  exact sep_mono (entry_arrays m c) .rfl

/-- EXIT, the buffers' part: the converse at the exit contents; the two buffers no window names are where W2 agrees
    with the entry contents. -/
theorem held_exit (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (W2 m c) : sProp 𝕄) := by
  rw [← Pipeline.unscopedBufs_held c (W2 m c), Pipeline.unscopedBufs_split₀ cfgs 0 winFacts₀0.arr_unscoped c]
  refine sep_mono (exit_arrays m c) (Entails.of_eq ?_)
  rw [unscopedRest0_eq, unscopedRest0_eq]
  rw [W2_of_ne m c main_arg4 (by decide), W2_of_ne m c main_v2 (by decide)]

/-! ## The proof data family and the thread state -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dats m 0 c
/-- No core owes another anything: no level is assigned. -/
abbrev L : GSem nD τ sig → Finset Unit := fun _ => ∅
abbrev lv : GSem nD τ sig → Unit → ℕ := fun _ _ => 0
/-- Beside the buffers, through every item: the generator register at some state, and the core owing nothing. -/
abbrev R (c : Dev nD) : sProp 𝕄 := iprop((∃ r, prngReg c r) ∗ ∃ W, owes (c : Thread nD τ) (0 : CellTallies nD τ sig Unit) W)

/-- Neither reshape allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host operations from the contents W, the rest of the thread state riding along: it ends at the
    operations' results folded over W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The region's four entailments -/

/-- A core owing nothing, whatever it has recorded, owes the proof data's first tallies (none) within their bound
    (everything). -/
theorem owes_in (c : Dev nD) :
    iprop(∃ W, owes (c : Thread nD τ) (0 : CellTallies nD τ sig Unit) W) ⊢ ((dats m 0 c).owesAt () 0 : sProp 𝕄) := by
  iintro ⟨%W, Howes⟩
  iexists W
  isplitr
  · ipureintro; intro x _; exact Or.inl trivial
  iexact Howes

/-- After the last point it owes nothing still. -/
theorem owes_out (c : Dev nD) :
    ((dats m 0 c).owesAt () (Fin.last cfg0.N) : sProp 𝕄) ⊢ iprop(∃ W, owes (c : Thread nD τ) (0 : CellTallies nD τ sig Unit) W) := by
  iintro ⟨%W, -, Howes⟩
  iexists W
  iexact Howes

/-- The pipeline has no prefetched table: holding them all is holding nothing. -/
theorem no_tables (c : Dev nD) :
    (Pipeline.prefHeld (pcfgs (F := F) 0).pre c (fun _ => fullShare) (adm (F := F) 0).1 : sProp 𝕄) = (BI.emp : sProp 𝕄) :=
  BI.bigSep_empty

/-- ENTRY: the thread state sorted into the windows' arrays, the core's owes, the generator register (which enters the
    invariant) and the two buffers that bypass the region. -/
theorem region_entry (c : Dev nD) :
    iprop((StableHlo.held (c : Thread nD τ) (Pipeline.ucRefs τ sig) (W1 m c) ∗ R c)
        ∗ Pipeline.ownSems0 (fun k : PEmpty => k.elim) c ∗ levAts L lv)
      ⊢ |={Set.univ}=> iprop((dats m 0 c).arrays ((dats m 0 c).arrAt · 0)
          ∗ Pipeline.prefHeld (pcfgs (F := F) 0).pre c (fun _ => fullShare) (adm (F := F) 0).1
          ∗ (dats m 0 c).owesAt () 0 ∗ (∃ r, prngReg c r)
          ∗ Pipeline.unscopedRest (Ix := Unit) (Name := ℕ) (U := UR sig nD τ) (Lvl := ℕ) spec0 c (V m c)) := by
  rw [no_tables]
  iintro ⟨⟨Hbufs, Hgen, Howes⟩, -, -⟩
  ihave Hsplit := (held_entry m c) $$ Hbufs
  icases Hsplit with ⟨Harr, Hrest⟩
  imodintro
  isplitl [Harr]; · iexact Harr
  isplitr; · iempintro
  isplitl [Howes]; · iapply (owes_in m c); iexact Howes
  isplitl [Hgen]; · iexact Hgen
  iexact Hrest

/-- The invariant at the first point: the scoped buffers no window stages, and the generator register. -/
theorem region_in (c : Dev nD) :
    iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c)
      ⊢ ((dats m 0 c).Φ 0 : sProp 𝕄) := by
  show _ ⊢ Pipeline.ΦA spec0 c
  unfold Pipeline.ΦA
  iintro ⟨Hgen, -, Hscoped⟩
  isplitl [Hscoped]; · iexact Hscoped
  iexact Hgen

/-- The invariant at the last point gives both back; the kernel has no semaphore of its own. -/
theorem region_out (c : Dev nD) :
    ((dats m 0 c).Φ (Fin.last cfg0.N) : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) spec0 c) := by
  show Pipeline.ΦA spec0 c ⊢ _
  unfold Pipeline.ΦA
  rw [Pipeline.ownSems0_none]
  iintro ⟨Hscoped, Hgen⟩
  isplitl [Hgen]; · iexact Hgen
  isplitr; · iempintro
  iexact Hscoped

/-- EXIT: the arrays at their final contents and the two bypassing buffers are every unscoped buffer at W2; the
    generator register and the owes as before. -/
theorem region_exit (c : Dev nD) :
    iprop((dats m 0 c).arrays ((dats m 0 c).arrAt · cfg0.N) ∗ (dats m 0 c).owesAt () (Fin.last cfg0.N) ∗ (∃ r, prngReg c r)
        ∗ Pipeline.unscopedRest (Ix := Unit) (Name := ℕ) (U := UR sig nD τ) (Lvl := ℕ) spec0 c (V m c))
      ⊢ |={Set.univ}=> iprop(StableHlo.held (c : Thread nD τ) (Pipeline.ucRefs τ sig) (W2 m c) ∗ R c) := by
  iintro ⟨Harr, Howes, Hgen, Hrest⟩
  imodintro
  isplitl [Harr Hrest]
  · iapply (held_exit m c)
    isplitl [Harr]; · iexact Harr
    iexact Hrest
  isplitl [Hgen]; · iexact Hgen
  iapply (owes_out m c); iexact Howes

-- the fields are stated over the family's member at pipeline 0, which is the body's proof data only after unfolding
-- plain definitions in a metavariable's type
set_option backward.isDefEq.respectTransparency.types false in
/-- The region over the thread state: entered from every unscoped buffer at W1, left at W2. -/
def reg0 : Pipeline.RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := region_entry m c
  hin c := region_in m c
  hout c := region_out m c
  hexit c := region_exit m c

/-! ## What the last boundary holds -/

/-- The result: the reshape of the region's output array as the write-backs left it. -/
theorem W3_main_v2 (c : Dev nD) :
    W3 m c (Proc.devRef .tc main_v2) = shapeCast S64x1x1024 ((dats m 0 c).arrAt 6 cfg0.N) shapeCasts_S8x8x1024_S64x1x1024 := by
  show StableHlo.after hostOps1 (W2 m c) (Proc.devRef .tc main_v2) = _
  simp only [StableHlo.after_cons, StableHlo.after_nil]
  rw [StableHlo.reshape_result, W2_main_v1]
  rfl

/-- A buffer that is neither reshape's result nor the region's output ends as launched: the second reshape writes
    only the result, the region only its output array, the first reshape only the reshaped weight bias. -/
theorem W3_of_arg (c : Dev nD) (b : Ref sig .tc) (h0 : b ≠ main_v0) (h1 : b ≠ main_v1) (h2 : b ≠ main_v2) :
    W3 m c (Proc.devRef .tc b) = m ((c : Thread nD τ).loc b) :=
  calc W3 m c (Proc.devRef .tc b)
    _ = W2 m c (Proc.devRef .tc b) := StableHlo.after_of_forall_not_mem (b := Proc.devRef .tc b) _ _ (by
          intro op hop
          rw [List.mem_singleton.mp hop, StableHlo.reshape_writes, Finset.mem_singleton]
          exact StableHlo.devRef_ne_of_ne h2)
    _ = W1 m c (Proc.devRef .tc b) := W2_of_ne m c b h1
    _ = W0 m c (Proc.devRef .tc b) := StableHlo.after_of_forall_not_mem (b := Proc.devRef .tc b) _ _ (by
          intro op hop
          rw [List.mem_singleton.mp hop, StableHlo.reshape_writes, Finset.mem_singleton]
          exact StableHlo.devRef_ne_of_ne h0)
    _ = m ((c : Thread nD τ).loc b) := rfl

/-! ## @main as segments, and the launch -/

/-- @main's three items in order: the first reshape from the launch contents, the region, the second reshape from the
    region's exit contents. -/
abbrev segs : List (Pipeline.Seg (pcfgs (F := F)) adm (pdats m) () defs₀ Variants.none L lv) :=
  [ .host (hseg hostOps0 hostOps0_sub hostOps0_fresh (W0 m)),
    .region (reg0 m),
    .host (hseg hostOps1 hostOps1_sub hostOps1_fresh (W2 m)) ]

/-- @main is the run of those items. -/
theorem main_run (c : Dev nD) : main (F := F) c = Pipeline.Seg.run (segs m) := (main_chain c).trans (by chain_rfl)

/-- The last thread state, the owes apart: every unscoped buffer at W3, the generator register at some state. -/
abbrev Tₙ (c : Dev nD) : sProp 𝕄 := iprop(StableHlo.held (c : Thread nD τ) (Pipeline.ucRefs τ sig) (W3 m c) ∗ ∃ r, prngReg c r)

/-- What the second reshape leaves is that state beside the core owing nothing. -/
theorem last_link (c : Dev nD) :
    iprop(StableHlo.held (c : Thread nD τ) (Pipeline.ucRefs τ sig) (W3 m c) ∗ R c)
      ⊢ iprop(Tₙ m c ∗ ∃ W, owes (c : Thread nD τ) (0 : CellTallies nD τ sig Unit) W) := by
  iintro ⟨Hbufs, Hgen, Howes⟩
  isplitr [Howes]
  · isplitl [Hbufs]; · iexact Hbufs
    iexact Hgen
  iexact Howes

/-- The launch element is the pipeline's own, as it stands; no core gets a ghost resource besides. -/
theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  rw [BI.bigSep_emp_const]
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iempintro

/-- What the launch deals a core makes its first thread state: the buffers as launched, the generator register at its
    launch state, nothing owed and nothing recorded. -/
theorem core_init (c : Dev nD) :
    iprop((unscopedBufs c (fun b => m ((c : Thread nD τ).loc b)) ∗ unscopedSems0 c
          ∗ owes (c : Thread nD τ) (0 : CellTallies nD τ sig Unit) ∅ ∗ Pipeline.launchCred (0 : Dev nD → CellTallies nD τ sig Unit) c
          ∗ prngReg c (ρ c) ∗ (BI.emp : sProp 𝕄)) ∗ levAts L lv)
      ⊢ |={Set.univ}=> iprop(StableHlo.held (c : Thread nD τ) (Pipeline.ucRefs τ sig) (W0 m c) ∗ R c) := by
  rw [show unscopedBufs c (fun b => m ((c : Thread nD τ).loc b)) = StableHlo.held (c : Thread nD τ) (Pipeline.ucRefs τ sig) (W0 m c)
    from Pipeline.unscopedBufs_held c (W0 m c)]
  iintro ⟨⟨Hbufs, -, Howes, -, Hgen, -⟩, -⟩
  imodintro
  isplitl [Hbufs]; · iexact Hbufs
  isplitl [Hgen]
  · iexists (ρ c); iexact Hgen
  iexists ∅; iexact Howes

/-- The last thread state read against a final state: the memory holds W3 at every unscoped buffer. -/
theorem read_last (c : Dev nD) (s' : Phys nD τ sig (Elt F)) :
    iprop(Tₙ m c ∗ SI s') ⊢ |={Set.univ}=> iprop(⌜∀ b ∈ Pipeline.ucRefs τ sig, s'.mem.mem (((c : Thread nD τ)).1, b) = W3 m c b⌝ ∗ SI s') := by
  iintro ⟨⟨Hbufs, -⟩, HSI⟩
  unfold StableHlo.held
  imodintro
  iapply (pointsTo_read_all (Pipeline.ucRefs τ sig) (fun b => (((c : Thread nD τ)).1, b)) (W3 m c) s')
  isplitl [Hbufs]; · iexact Hbufs
  iexact HSI

end LaunchRun

open LaunchRun in
-- the launch theorem's implicit arguments are found by unifying its conclusion with this one, which takes unfolding
-- plain definitions in a metavariable's type
set_option backward.isDefEq.respectTransparency.types false in
/-- Every weakly fair execution of the kernel's @main terminates; the result is the reshape of the region's output
    array after its eight write-backs, and the arguments are as launched. -/
theorem run_main : θ_run (defs (F := F)) (onTc (τ := τ) (main (F := F))) ⟨m, fun _ => 0, ρ⟩ fun r => ∀ c : Dev nD,
      r.2.mem ((c : Thread nD τ).loc main_v2)
        = shapeCast S64x1x1024 ((dats m 0 c).arrAt 6 cfg0.N) shapeCasts_S8x8x1024_S64x1x1024
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_elem)
    (T₀ := fun c => iprop(StableHlo.held (c : Thread nD τ) (Pipeline.ucRefs τ sig) (W0 m c) ∗ R c)) (Tₙ := Tₙ m)
    (hch := ⟨fun _ => .rfl, fun _ => .rfl, fun _ => .rfl, last_link m⟩)
    (hinit := Pipeline.initEach L lv (core_init m ρ))
    (QY := fun c s => ∀ b ∈ Pipeline.ucRefs τ sig, s.mem (((c : Thread nD τ)).1, b) = W3 m c b)
    (hfin := read_last m)
    (hQ := fun s h c =>
      ⟨(h c _ (mem_uc main_v2 (by decide))).trans (W3_main_v2 m c),
       (h c _ (mem_uc main_arg0 (by decide))).trans (W3_of_arg m c main_arg0 (by decide) (by decide) (by decide)),
       (h c _ (mem_uc main_arg1 (by decide))).trans (W3_of_arg m c main_arg1 (by decide) (by decide) (by decide)),
       (h c _ (mem_uc main_arg2 (by decide))).trans (W3_of_arg m c main_arg2 (by decide) (by decide) (by decide)),
       (h c _ (mem_uc main_arg3 (by decide))).trans (W3_of_arg m c main_arg3 (by decide) (by decide) (by decide)),
       (h c _ (mem_uc main_arg4 (by decide))).trans (W3_of_arg m c main_arg4 (by decide) (by decide) (by decide))⟩)

end Cert.Kernel.Hand

end
-- ==== Proof.KBody.lean ====
/-
  The kernel's body and its proof data, at any float instance.

  One grid point handles a tile of eight batches: it loads the two half-sequence blocks of the context (two windows on
  ONE array), the gain, the bias, the weight matrix and the weight bias, and stores one [1, 8, 1024] block of the result.
  The stored value is a pure function of the six loaded blocks (kpay). Nothing is carried from point to point, so after
  the body each input's staging buffer still holds its block and the output's holds that function of the blocks.
-/
import proofs.«152959_g2000505949230300_pallasbulk_1065_16_alg».proof.Proof.Gen.KernelIdeal.Launch
import proofs.«152959_g2000505949230300_pallasbulk_1065_16_alg».proof.Proof.Gen.KernelIdeal.Skeleton
import proofs.«152959_g2000505949230300_pallasbulk_1065_16_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them, and the windows' blocks -/

/-- Core c's buffers when the region is entered: after the one host operation before it (the weight bias reshaped). -/
abbrev V (c : Dev nD) (b : Ref sig .tc) : Buf (Elt F) ((c : Thread nD τ).loc b) := StableHlo.after hostOps0 (fun b => m (c, b)) b

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The stored value as one function of the loaded blocks -/

/-- What the body stores, from the six loaded blocks: the first half's statistics and pooled tile, the second half's,
    their sum scaled, gain and bias applied, the product with the weight matrix, the weight bias added. -/
def kpay (x0 x1 : Vec F S8x256x1024 .f32) (xg xb : Vec F S1x1024 .f32) (xw : Vec F S1024x1024 .f32) (xwb : Vec F S1x1024 .f32) :
    FVec F S1x8x1024 .f32 :=
  k0_pay1 (k0_pay7 (k0_pay2 x0) (k0_pay3 x0) (k0_pay4 x0) (k0_pay5 x0) k0_pay6) (k0_pay8 x1) (k0_pay9 x1) (k0_pay10 x1) (k0_pay11 x1)
    (iota .tc S8x2048 32 [1] iota_S8x2048_d1_w32) k0_pay12 k0_pay13 k0_pay14 xg xb xw xwb

abbrev rIn : Rect S8x256x1024 := Rect.unit (s := S8x256x1024) ![0, 0, 0] S8x256x1024.size inb_S8x256x1024_S8x256x1024_0_0_0
abbrev rVec : Rect S1x1024 := Rect.unit (s := S1x1024) ![0, 0] S1x1024.size inb_S1x1024_S1x1024_0_0
abbrev rMat : Rect S1024x1024 := Rect.unit (s := S1024x1024) ![0, 0] S1024x1024.size inb_S1024x1024_S1024x1024_0_0
abbrev rOut : Rect S1x8x1024 := Rect.unit (s := S1x8x1024) ![0, 0, 0] S1x8x1024.size inb_S1x8x1024_S1x8x1024_0_0_0

/-- The output window's staging buffer after the body: its one store, covering the buffer. -/
def out0_6 (x0 x1 : Vec F S8x256x1024 .f32) (x2 x3 : Vec F S1x1024 .f32) (x4 : Vec F S1024x1024 .f32) (x5 : Vec F S1x1024 .f32) :
    Vec F S1x8x1024 .f32 :=
  View.canon [⟨rOut, kpay (View.ld x0 rIn) (View.ld x1 rIn) (View.ld x2 rVec) (View.ld x3 rVec) (View.ld x4 rMat) (View.ld x5 rVec)⟩]

/-! ## The proof data -/

/-- After the body at point t each input's buffer holds its block and the output's holds out0_6 of the blocks; the two
    context windows hold one half each of their shared array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_6 (c : Dev nD) (t : Fin cfg0.N) :
    (dats m 0 c).after 6 t = out0_6 (iblk m c 0 t) (iblk m c 1 t) (iblk m c 2 t) (iblk m c 3 t) (iblk m c 4 t) (iblk m c 5 t) := by
  dsimp only [dats]

/-! ## What each input's buffer holds when the body runs

An input window's block index moves only when the pipeline fetches, no input window is cut at its array's end, and none
is ever idle; the body leaves each input block where it found it. So whether or not a point fetches a window, the body
finds that window's block of the array in its buffer. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- A fetch of window w at point t lands the block iblk names: both read the same block of the same array. -/
theorem fetched_eq_iblk (c : Dev nD) (w : Fin cfg0.W) (t : Fin cfg0.N) : (dats m 0 c).blockOf w t = iblk m c w t := by
  unfold Dat.blockOf iblk; rw [A_eq]

/-- The first half-sequence block of the context. -/
theorem before0_0 (c : Dev nD) (t : Fin cfg0.N) (d) : (dats m 0 c).before 0 t d = iblk m c 0 t := by
  have hk : ∀ s, (cfg0.win 0).cut (cfg0.grid.coords s) ((dats m 0 c).after 0 s) = (dats m 0 c).blockOf 0 s := fun s => by
    rw [after0_0, fetched_eq_iblk]
  rw [(dats m 0 c).before_in_eq_fetched 0 rfl (fun _ => rfl) (fun _ _ _ => rfl) hk t d]
  unfold Dat.fetched; rw [fetched_eq_iblk]; rfl

/-- The second half-sequence block of the context (the same array, the other half of the sequence axis). -/
theorem before0_1 (c : Dev nD) (t : Fin cfg0.N) (d) : (dats m 0 c).before 1 t d = iblk m c 1 t := by
  have hk : ∀ s, (cfg0.win 1).cut (cfg0.grid.coords s) ((dats m 0 c).after 1 s) = (dats m 0 c).blockOf 1 s := fun s => by
    rw [after0_1, fetched_eq_iblk]
  rw [(dats m 0 c).before_in_eq_fetched 1 rfl (fun _ => rfl) (fun _ _ _ => rfl) hk t d]
  unfold Dat.fetched; rw [fetched_eq_iblk]; rfl

/-- The gain: fetched at the first point only, found unchanged at the others. -/
theorem before0_2 (c : Dev nD) (t : Fin cfg0.N) (d) : (dats m 0 c).before 2 t d = iblk m c 2 t := by
  have hk : ∀ s, (cfg0.win 2).cut (cfg0.grid.coords s) ((dats m 0 c).after 2 s) = (dats m 0 c).blockOf 2 s := fun s => by
    rw [after0_2, fetched_eq_iblk]
  rw [(dats m 0 c).before_in_eq_fetched 2 rfl (fun _ => rfl) (fun _ _ _ => rfl) hk t d]
  unfold Dat.fetched; rw [fetched_eq_iblk]; rfl

/-- The bias. -/
theorem before0_3 (c : Dev nD) (t : Fin cfg0.N) (d) : (dats m 0 c).before 3 t d = iblk m c 3 t := by
  have hk : ∀ s, (cfg0.win 3).cut (cfg0.grid.coords s) ((dats m 0 c).after 3 s) = (dats m 0 c).blockOf 3 s := fun s => by
    rw [after0_3, fetched_eq_iblk]
  rw [(dats m 0 c).before_in_eq_fetched 3 rfl (fun _ => rfl) (fun _ _ _ => rfl) hk t d]
  unfold Dat.fetched; rw [fetched_eq_iblk]; rfl

/-- The weight matrix. -/
theorem before0_4 (c : Dev nD) (t : Fin cfg0.N) (d) : (dats m 0 c).before 4 t d = iblk m c 4 t := by
  have hk : ∀ s, (cfg0.win 4).cut (cfg0.grid.coords s) ((dats m 0 c).after 4 s) = (dats m 0 c).blockOf 4 s := fun s => by
    rw [after0_4, fetched_eq_iblk]
  rw [(dats m 0 c).before_in_eq_fetched 4 rfl (fun _ => rfl) (fun _ _ _ => rfl) hk t d]
  unfold Dat.fetched; rw [fetched_eq_iblk]; rfl

/-- The weight bias (the reshaped host array). -/
theorem before0_5 (c : Dev nD) (t : Fin cfg0.N) (d) : (dats m 0 c).before 5 t d = iblk m c 5 t := by
  have hk : ∀ s, (cfg0.win 5).cut (cfg0.grid.coords s) ((dats m 0 c).after 5 s) = (dats m 0 c).blockOf 5 s := fun s => by
    rw [after0_5, fetched_eq_iblk]
  rw [(dats m 0 c).before_in_eq_fetched 5 rfl (fun _ => rfl) (fun _ _ _ => rfl) hk t d]
  unfold Dat.fetched; rw [fetched_eq_iblk]; rfl

/-! ## The one store fills the output buffer -/

/-- The store's rectangle is the whole [1, 8, 1024] buffer, so whatever is stored through it covers every index. -/
theorem cover_out (p : Vec F S1x8x1024 .f32) (y : S1x8x1024.Idx) :
    ∃ pc ∈ ([⟨rOut, p⟩] : List (View.Piece (Elt F) S1x8x1024 .f32)), y ∈ pc.1.set :=
  View.cover_of_tiled [⟨rOut, p⟩] S1x8x1024.size (by rfl) y

/-! ## The body on any six blocks -/

set_option maxHeartbeats 1000000 in
/-- On whole staging buffers — the six inputs' at read contents x0 … x5, the output's at anything — the kernel function
    runs to any continuation that takes the inputs back as they were and the output at out0_6 of the six: each input
    is loaded whole and never written; the output is loaded once (the value is not used) and then stored once through
    the covering rectangle, so what it held before does not matter. -/
theorem prenorm_pool_triple (c : Dev nD) (E : Set ℕ) (i : grid0.Coords)
    (aL : Memref sig .tc .vmem S8x256x1024 .f32) (hL : aL.IsWhole) (aR : Memref sig .tc .vmem S8x256x1024 .f32) (hR : aR.IsWhole)
    (aG : Memref sig .tc .vmem S1x1024 .f32) (hG : aG.IsWhole) (aB : Memref sig .tc .vmem S1x1024 .f32) (hB : aB.IsWhole)
    (aW : Memref sig .tc .vmem S1024x1024 .f32) (hW : aW.IsWhole) (aWb : Memref sig .tc .vmem S1x1024 .f32) (hWb : aWb.IsWhole)
    (aO : Memref sig .tc .vmem S1x8x1024 .f32) (hO : aO.IsWhole)
    (x0 x1 : Vec F S8x256x1024 .f32) (x2 x3 : Vec F S1x1024 .f32) (x4 : Vec F S1024x1024 .f32) (x5 : Vec F S1x1024 .f32)
    (K : PUnit → sProp 𝕄) :
    iprop(owns (c : Thread nD τ) aL fullShare x0 ∗ owns (c : Thread nD τ) aR fullShare x1 ∗ owns (c : Thread nD τ) aG fullShare x2
        ∗ owns (c : Thread nD τ) aB fullShare x3 ∗ owns (c : Thread nD τ) aW fullShare x4 ∗ owns (c : Thread nD τ) aWb fullShare x5
        ∗ (∃ d, owns (c : Thread nD τ) aO fullShare d)
        ∗ (iprop(owns (c : Thread nD τ) aL fullShare x0 ∗ owns (c : Thread nD τ) aR fullShare x1 ∗ owns (c : Thread nD τ) aG fullShare x2
            ∗ owns (c : Thread nD τ) aB fullShare x3 ∗ owns (c : Thread nD τ) aW fullShare x4 ∗ owns (c : Thread nD τ) aWb fullShare x5
            ∗ owns (c : Thread nD τ) aO fullShare (out0_6 x0 x1 x2 x3 x4 x5)) -∗ K ⟨⟩))
      ⊢ wp frame (wpE (defs₀ (F := F)) Variants.none c none) E
          (cc0__prenorm_pool_kernel i aL hL aR hR aG hG aB hB aW hW aWb hWb aO hO) K := by
  sl_unfold [cc0__prenorm_pool_kernel]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, Hk⟩
  subst e0 e1 e2 e3 e4 e5
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  iexists _; isplitr
  swap
  · iexact H6
  ipureintro
  exact View.read_writes_eq_canon _ _ _ (cover_out _)

/-! ## The body at a grid point

The pipeline calls the kernel function at point t on each window's current staging buffer. What it hands over and what it
wants back are stated here window by window, so that the obligation is one application of the triple above at the
point's six blocks. -/

/-- What the body is handed at point t: the invariant, what the core owes, and each window's current buffer at what the
    point finds there (for the output: anything). -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it gives back: the same invariant and debt (nothing is carried, nothing signalled) and each buffer at what the
    proof data say the body leaves. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At any point the six input buffers hold the point's blocks, so the triple applies at those blocks; the invariant and
    the debt pass through untouched. -/
theorem sound_body (c : Dev nD) (t : Fin cfg0.N) :
    pointPre m c t ⊢ wp frame (wpE (defs₀ (F := F)) Variants.none c none) Set.univ (bodyAt0 t) (fun _ => pointPost m c t) := by
  unfold pointPre pointPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (prenorm_pool_triple c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KBlocks.lean ====
/-
  The kernel's blocks read off the launched arrays, and what a grid point writes back.

  Grid point t (of eight) handles batches 8t .. 8t+7. Window 0's block is rows 0-255 of those batches of the context,
  window 1's is rows 256-511 of the same batches of the SAME array; windows 2-5 are the whole gain, bias, weight matrix
  and reshaped weight bias. The one host operation before the region writes only the reshaped weight bias, so the region
  finds every argument as launched. What point t writes back is the stored function of its six blocks.
-/
import proofs.«152959_g2000505949230300_pallasbulk_1065_16_alg».proof.Proof.KBody
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-! ## The stored block is the stored function of the loaded blocks -/

theorem hz3 : (![0, 0, 0] : Fin 3 → Nat) = fun _ => 0 := by
  funext a; match a with | ⟨0, _⟩ => rfl | ⟨1, _⟩ => rfl | ⟨2, _⟩ => rfl
theorem hz2 : (![0, 0] : Fin 2 → Nat) = fun _ => 0 := by
  funext a; match a with | ⟨0, _⟩ => rfl | ⟨1, _⟩ => rfl

/-- One covering store, whole-buffer loads: the buffer after the body is kpay of the buffers' contents. -/
theorem out0_6_eq (x0 x1 : Vec F S8x256x1024 .f32) (x2 x3 : Vec F S1x1024 .f32) (x4 : Vec F S1024x1024 .f32) (x5 : Vec F S1x1024 .f32) :
    out0_6 x0 x1 x2 x3 x4 x5 = kpay x0 x1 x2 x3 x4 x5 := by
  unfold out0_6
  rw [View.canon_unit_zero hz3]
  simp only [View.ld_unit_zero (S := S8x256x1024) hz3, View.ld_unit_zero (S := S1x1024) hz2, View.ld_unit_zero (S := S1024x1024) hz2]

/-- What point t writes back to the result array: the stored function of its six input blocks, read through the block. -/
theorem flushed6 (c : Dev nD) (t : Fin cfg0.N) :
    (dats m 0 c).flushed 6 t
      = (cfg0.win 6).cut (grid0.coords t) (kpay (iblk m c 0 t) (iblk m c 1 t) (iblk m c 2 t) (iblk m c 3 t) (iblk m c 4 t) (iblk m c 5 t)) := by
  show (cfg0.win 6).cut (grid0.coords t) ((dats m 0 c).after 6 t) = _
  rw [after0_6, out0_6_eq]

/-! ## The region finds every argument as launched -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-- The reshaped weight bias, as the region finds it. -/
theorem V_main_v0 (c : Dev nD) :
    (V m c main_v0 : S1x1024.Idx → Elt F .f32) = shapeCast S1x1024 (m ((c : Thread nD τ).loc main_arg4)) shapeCasts_S1024_S1x1024 := by
  dsimp only [V, hostOps0]
  after_results
  rfl

/-! ## The blocks at explicit coordinates -/

/-- The input blocks under their literal types. -/
abbrev blk0 (c : Dev nD) (t : Fin cfg0.N) : Vec F S8x256x1024 .f32 := iblk m c 0 t
abbrev blk1 (c : Dev nD) (t : Fin cfg0.N) : Vec F S8x256x1024 .f32 := iblk m c 1 t
abbrev blk2 (c : Dev nD) (t : Fin cfg0.N) : Vec F S1x1024 .f32 := iblk m c 2 t
abbrev blk3 (c : Dev nD) (t : Fin cfg0.N) : Vec F S1x1024 .f32 := iblk m c 3 t
abbrev blk4 (c : Dev nD) (t : Fin cfg0.N) : Vec F S1024x1024 .f32 := iblk m c 4 t
abbrev blk5 (c : Dev nD) (t : Fin cfg0.N) : Vec F S1x1024 .f32 := iblk m c 5 t

/-- The windows' block indices over the eight points: window 0 is block (t, 0, 0), window 1 block (t, 1, 0) of the
    context in [8, 256, 1024] blocks; windows 2-5 stay at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 1 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Batch 8t + p of the context. -/
def batchOf (t : Fin cfg0.N) (p : Fin 8) : Fin 64 :=
  ⟨8 * t.val + p.val, by have ht : t.val < 8 := lt_of_lt_of_eq t.isLt (show cfg0.N = 8 from N_0); have := p.isLt; omega⟩

/-- Row r of the second half sequence. -/
def upperRow (r : Fin 256) : Fin 512 := ⟨256 + r.val, by have := r.isLt; omega⟩
def lowerRow (r : Fin 256) : Fin 512 := ⟨r.val, by have := r.isLt; omega⟩

theorem blk0_apply (c : Dev nD) (t : Fin cfg0.N) (p : Fin 8) (r : Fin 256) (k : Fin 1024) :
    blk0 m c t (ix3 p r k) = m ((c : Thread nD τ).loc main_arg0) (ix3 (batchOf t p) (lowerRow r) k) := by
  rw [← V_main_arg0 m c]
  show V m c main_arg0 (((cfg0.win 0).blk t).view.emb (ix3 p r k)) = V m c main_arg0 (ix3 (batchOf t p) (lowerRow r) k)
  refine congrArg _ (funext fun a => Fin.ext ?_)
  obtain ⟨h0, h1, h2, -⟩ := idx_facts t
  match a with
  | ⟨0, _⟩ => show win0_0.index t (0 : Fin 3) * 8 + 1 * p.val = 8 * t.val + p.val; rw [h0]; omega
  | ⟨1, _⟩ => show win0_0.index t (1 : Fin 3) * 256 + 1 * r.val = r.val; rw [h1]; omega
  | ⟨2, _⟩ => show win0_0.index t (2 : Fin 3) * 1024 + 1 * k.val = k.val; rw [h2]; omega

theorem blk1_apply (c : Dev nD) (t : Fin cfg0.N) (p : Fin 8) (r : Fin 256) (k : Fin 1024) :
    blk1 m c t (ix3 p r k) = m ((c : Thread nD τ).loc main_arg0) (ix3 (batchOf t p) (upperRow r) k) := by
  rw [← V_main_arg0 m c]
  show V m c main_arg0 (((cfg0.win 1).blk t).view.emb (ix3 p r k)) = V m c main_arg0 (ix3 (batchOf t p) (upperRow r) k)
  refine congrArg _ (funext fun a => Fin.ext ?_)
  obtain ⟨-, -, -, h0, h1, h2, -⟩ := idx_facts t
  match a with
  | ⟨0, _⟩ => show win0_1.index t (0 : Fin 3) * 8 + 1 * p.val = 8 * t.val + p.val; rw [h0]; omega
  | ⟨1, _⟩ => show win0_1.index t (1 : Fin 3) * 256 + 1 * r.val = 256 + r.val; rw [h1]; omega
  | ⟨2, _⟩ => show win0_1.index t (2 : Fin 3) * 1024 + 1 * k.val = k.val; rw [h2]; omega

/-- The gain's block is the whole gain. -/
theorem blk2_apply (c : Dev nD) (t : Fin cfg0.N) (k : Fin 1024) :
    blk2 m c t (ix2 (0 : Fin 1) k) = m ((c : Thread nD τ).loc main_arg1) (ix2 (0 : Fin 1) k) := by
  rw [← V_main_arg1 m c]
  show V m c main_arg1 (((cfg0.win 2).blk t).view.emb (ix2 (0 : Fin 1) k)) = V m c main_arg1 (ix2 (0 : Fin 1) k)
  refine congrArg _ (funext fun a => Fin.ext ?_)
  obtain ⟨-, -, -, -, -, -, h0, h1, -⟩ := idx_facts t
  match a with
  | ⟨0, _⟩ => show win0_2.index t (0 : Fin 2) * 1 + 1 * 0 = 0; rw [h0]
  | ⟨1, _⟩ => show win0_2.index t (1 : Fin 2) * 1024 + 1 * k.val = k.val; rw [h1]; omega

/-- The bias's block is the whole bias. -/
theorem blk3_apply (c : Dev nD) (t : Fin cfg0.N) (k : Fin 1024) :
    blk3 m c t (ix2 (0 : Fin 1) k) = m ((c : Thread nD τ).loc main_arg2) (ix2 (0 : Fin 1) k) := by
  rw [← V_main_arg2 m c]
  show V m c main_arg2 (((cfg0.win 3).blk t).view.emb (ix2 (0 : Fin 1) k)) = V m c main_arg2 (ix2 (0 : Fin 1) k)
  refine congrArg _ (funext fun a => Fin.ext ?_)
  obtain ⟨-, -, -, -, -, -, -, -, h0, h1, -⟩ := idx_facts t
  match a with
  | ⟨0, _⟩ => show win0_3.index t (0 : Fin 2) * 1 + 1 * 0 = 0; rw [h0]
  | ⟨1, _⟩ => show win0_3.index t (1 : Fin 2) * 1024 + 1 * k.val = k.val; rw [h1]; omega

/-- The weight matrix's block is the whole matrix. -/
theorem blk4_apply (c : Dev nD) (t : Fin cfg0.N) (k q : Fin 1024) :
    blk4 m c t (ix2 k q) = m ((c : Thread nD τ).loc main_arg3) (ix2 k q) := by
  rw [← V_main_arg3 m c]
  show V m c main_arg3 (((cfg0.win 4).blk t).view.emb (ix2 k q)) = V m c main_arg3 (ix2 k q)
  refine congrArg _ (funext fun a => Fin.ext ?_)
  obtain ⟨-, -, -, -, -, -, -, -, -, -, h0, h1, -⟩ := idx_facts t
  match a with
  | ⟨0, _⟩ => show win0_4.index t (0 : Fin 2) * 1024 + 1 * k.val = k.val; rw [h0]; omega
  | ⟨1, _⟩ => show win0_4.index t (1 : Fin 2) * 1024 + 1 * q.val = q.val; rw [h1]; omega

/-- The weight bias's block is the launched weight bias, read through its reshape to one row. -/
theorem blk5_apply (c : Dev nD) (t : Fin cfg0.N) (q : Fin 1024) :
    blk5 m c t (ix2 (0 : Fin 1) q) = m ((c : Thread nD τ).loc main_arg4) (ix1 q) := by
  have e : blk5 m c t (ix2 (0 : Fin 1) q) = (V m c main_v0 : S1x1024.Idx → Elt F .f32) (ix2 (0 : Fin 1) q) := by
    show V m c main_v0 (((cfg0.win 5).blk t).view.emb (ix2 (0 : Fin 1) q)) = V m c main_v0 (ix2 (0 : Fin 1) q)
    refine congrArg _ (funext fun a => Fin.ext ?_)
    obtain ⟨-, -, -, -, -, -, -, -, -, -, -, -, h0, h1⟩ := idx_facts t
    match a with
    | ⟨0, _⟩ => show win0_5.index t (0 : Fin 2) * 1 + 1 * 0 = 0; rw [h0]
    | ⟨1, _⟩ => show win0_5.index t (1 : Fin 2) * 1024 + 1 * q.val = q.val; rw [h1]; omega
  rw [e, V_main_v0 m c]
  refine shapeCast_apply _ shapeCasts_S1024_S1x1024 (ix2 (0 : Fin 1) q) (ix1 q) ?_
  rw [Shape.rowMajor_val_two]
  show 0 * 1024 + q.val = _
  simp [Shape.rowMajor, ix1]

end Cert.KernelIdeal.Hand

end
-- ==== Proof.Spec.lean ====
/-
  The two sides as explicit functions over the extended reals.

  For one row v of 1024 entries the kernel takes the mean as (Σ v)·2⁻¹⁰ and the variance as (Σ v²)·2⁻¹⁰ − mean², the
  reference the mean as (Σ v)/1024 and the variance as (Σ (v − mean)²)/1024; both add the same ε and take the
  reciprocal square root. Over a half sequence of 256 rows the kernel sums rstd·v and subtracts Σ mean·rstd, scales the
  two halves' sum by 2⁻⁹ and only then applies the gain and the bias; the reference applies gain and bias row by row,
  sums the rows of the two halves and scales by 2⁻⁹. Both finish with the same product with the weight matrix plus the
  weight bias.
-/
import Idealize.ShloMosaic.PureOps.Ideal
import Idealize.ShloMosaic.Lib.ValueIdx

noncomputable section

open scoped BigOperators

namespace Cert.Spec

open Idealize.ShloMosaic Idealize.ShloMosaic.ValueIdx

abbrev SCtx : Shape := ⟨3, ![64, 512, 1024]⟩
abbrev SVec : Shape := ⟨2, ![1, 1024]⟩
abbrev SMat : Shape := ⟨2, ![1024, 1024]⟩
abbrev SBias : Shape := ⟨1, ![1024]⟩
abbrev SOut : Shape := ⟨3, ![64, 1, 1024]⟩

/-- 2⁻¹⁰, the kernel's reciprocal of the row length. -/
def cInvD : EReal := Ideal.ofBits .f32 0x3A800000#32
/-- 1024, the reference's divisor. -/
def cD : EReal := Ideal.ofBits .f32 0x44800000#32
/-- ε, the same word on both sides. -/
def cEps : EReal := Ideal.ofBits .f32 0x3727C5AC#32
/-- 2⁻⁹, the reciprocal of the sequence length, on both sides. -/
def cInvSeq : EReal := Ideal.ofBits .f32 0x3B000000#32

/-! ## The kernel's row statistics and pooled vector -/

def kMuRow (v : Fin 1024 → EReal) : EReal := (∑ k : Fin 1024, v k) * cInvD

def kRstdRow (v : Fin 1024 → EReal) : EReal :=
  Ideal.rsqrt (((∑ k : Fin 1024, v k * v k) * cInvD - kMuRow v * kMuRow v) + cEps)

/-- One half sequence (256 rows) pooled the kernel's way, at column k. -/
def kHalfOf (x : Fin 256 → Fin 1024 → EReal) (k : Fin 1024) : EReal :=
  (∑ m : Fin 256, kRstdRow (x m) * x m k) - ∑ m : Fin 256, kMuRow (x m) * kRstdRow (x m)

/-- The kernel's pooled, scaled and shifted vector at column k, from the two half sequences. -/
def kPooledOf (xa xb : Fin 256 → Fin 1024 → EReal) (g b : Fin 1024 → EReal) (k : Fin 1024) : EReal :=
  ((kHalfOf xa k + kHalfOf xb k) * cInvSeq) * g k + b k

/-! ## The reference's row statistics and pooled vector -/

def rMuRow (v : Fin 1024 → EReal) : EReal := Ideal.div (∑ k : Fin 1024, v k) cD

def rCen (v : Fin 1024 → EReal) (k : Fin 1024) : EReal := v k - rMuRow v

def rRstdRow (v : Fin 1024 → EReal) : EReal :=
  Ideal.rsqrt (Ideal.div (∑ k : Fin 1024, rCen v k * rCen v k) cD + cEps)

/-- One normalized, scaled and shifted row at column k. -/
def rNormRow (v : Fin 1024 → EReal) (g b : Fin 1024 → EReal) (k : Fin 1024) : EReal :=
  (rCen v k * rRstdRow v) * g k + b k

/-- One half sequence (256 rows) summed the reference's way, at column k. -/
def rHalfOf (x : Fin 256 → Fin 1024 → EReal) (g b : Fin 1024 → EReal) (k : Fin 1024) : EReal :=
  ∑ m : Fin 256, rNormRow (x m) g b k

/-- The reference's pooled vector at column k, from the two half sequences. -/
def rPooledOf (xa xb : Fin 256 → Fin 1024 → EReal) (g b : Fin 1024 → EReal) (k : Fin 1024) : EReal :=
  (rHalfOf xa g b k + rHalfOf xb g b k) * cInvSeq

/-! ## The arrays -/

/-- Row m of half h (h = 0: rows 0–255, h = 1: rows 256–511) of batch β. -/
def half (ctx : SCtx.Idx → EReal) (β : Fin 64) (h : Fin 2) (m : Fin 256) (k : Fin 1024) : EReal :=
  ctx (ix3 β (⟨h.val * 256 + m.val, by have := h.isLt; have := m.isLt; omega⟩ : Fin 512) k)

/-- A [1, 1024] array as a function of the column. -/
def vecOf (g : SVec.Idx → EReal) (k : Fin 1024) : EReal := g (ix2 (0 : Fin 1) k)

/-- The final product with the weight matrix plus the weight bias, from a pooled vector per batch. -/
def outOf (pooled : Fin 64 → Fin 1024 → EReal) (w : SMat.Idx → EReal) (wb : SBias.Idx → EReal) : SOut.Idx → EReal :=
  fun i => (∑ k : Fin 1024, pooled (i 0) k * w (ix2 k (i 2))) + wb (ix1 (i 2))

def kOut (ctx : SCtx.Idx → EReal) (g b : SVec.Idx → EReal) (w : SMat.Idx → EReal) (wb : SBias.Idx → EReal) : SOut.Idx → EReal :=
  outOf (fun β k => kPooledOf (half ctx β 0) (half ctx β 1) (vecOf g) (vecOf b) k) w wb

def rOut (ctx : SCtx.Idx → EReal) (g b : SVec.Idx → EReal) (w : SMat.Idx → EReal) (wb : SBias.Idx → EReal) : SOut.Idx → EReal :=
  outOf (fun β k => rPooledOf (half ctx β 0) (half ctx β 1) (vecOf g) (vecOf b) k) w wb

/-- Every entry is a real number. -/
def Finite {ι : Type} (f : ι → EReal) : Prop := ∀ i, ∃ r : ℝ, f i = (r : EReal)

end Cert.Spec

end
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.KPay.lean ====
/-
  The kernel's stored block read at one entry, at the ideal values.

  Entry (p, q) of the [8, 1024] tile a grid point stores is Σ over k of pooled(p, k) · w(k, q) plus wb(q), where
  pooled(p, ·) is the kernel's pooled vector of batch p of the tile: the two matrix products with the 0/1-masked
  reciprocal standard deviations are, row p, the sums over that batch's 256 rows only (the mask keeps column j exactly
  when j / 256 = p), minus the sum of mean · rstd, the two halves added, scaled by 2⁻⁹, the gain and the bias applied.
-/
import proofs.«152959_g2000505949230300_pallasbulk_1065_16_alg».proof.Proof.KBody
import proofs.«152959_g2000505949230300_pallasbulk_1065_16_alg».proof.Proof.Spec
import proofs.«152959_g2000505949230300_pallasbulk_1065_16_alg».proof.Proof.LibOuterDot
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- Batch p's 256 rows inside one [8, 256, 1024] half-sequence block. -/
def blkRows (x : Vec Ideal S8x256x1024 .f32) (p : Fin 8) (m : Fin 256) (k : Fin 1024) : EReal := x (ix3 p m k)

/-- A [1, 1024] block as a function of the column. -/
def rowVec (v : Vec Ideal S1x1024 .f32) (k : Fin 1024) : EReal := v (ix2 (0 : Fin 1) k)

/-! ## The mask: column j is kept in row p exactly when j / 256 = p -/

open Idealize.ShloMosaic.StableHlo.Predicate in
/-- A word below 2³¹ divided by 256 the signed way: no corner, both signs clear, so the plain quotient. -/
theorem divsi_256 (w : BitVec 32) (hw : w.toNat < 2 ^ 31) : (IntOp.divsi .vector w 256#32).toNat = w.toNat / 256 := by
  have hcorner : ¬ IntOp.SDivCorner w 256#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (256#32 : BitVec 32).msb = false from by decide, BitVec.udiv_eq,
    BitVec.toNat_udiv, BitVec.toNat_ofNat]

/-- The same word's signed remainder by 256 is the plain remainder. -/
theorem remsi_256 (w : BitVec 32) (hw : w.toNat < 2 ^ 31) : (IntOp.remsi .vector w 256#32).toNat = w.toNat % 256 := by
  have hcorner : ¬ IntOp.SDivCorner w 256#32 := by
    intro hc; rcases hc with hc | ⟨_, hc⟩ <;> exact absurd hc (by decide)
  have hm : w.msb = false := BitVec.msb_eq_false_iff_two_mul_lt.mpr (by omega)
  simp only [IntOp.remsi, if_neg hcorner, BitVec.srem_eq, hm, show (256#32 : BitVec 32).msb = false from by decide, BitVec.umod_eq,
    BitVec.toNat_umod, BitVec.toNat_ofNat]

/-- The floor division by 256 as the program writes it, and the comparison with the row number, on two words: the truncated quotient,
    lowered by one where the signs differ and the remainder is not zero, compared with the row. -/
def maskW (J P : BitVec 32) : BitVec 1 :=
  IntOp.cmpi .eq
    (Scalar.select
      (IntOp.andi
        (IntOp.cmpi .ne
          (IntOp.subi ((IntOp.cmpi .sgt J 0#32).setWidth 32) ((IntOp.cmpi .slt J 0#32).setWidth 32))
          (Scalar.subi (Scalar.extui (Scalar.cmpi .sgt 256#32 0#32)) (Scalar.extui (Scalar.cmpi .slt 256#32 0#32))))
        (IntOp.cmpi .ne (IntOp.remsi .vector J 256#32) 0#32))
      (IntOp.subi (IntOp.divsi .vector J 256#32) 1#32)
      (IntOp.divsi .vector J 256#32))
    P

open Idealize.ShloMosaic.StableHlo.Predicate in
/-- The correction never fires on a column number (it is not negative and 256 is positive): the mask is j / 256 = p. -/
theorem maskW_iff (j p : ℕ) (hj : j < 2048) (hp : p < 8) :
    maskW (BitVec.ofNat 32 j) (BitVec.ofNat 32 p) = 1#1 ↔ j / 256 = p := by
  have hJ : (BitVec.ofNat 32 j).toNat = j := by rw [BitVec.toNat_ofNat]; omega
  have hJ31 : (BitVec.ofNat 32 j).toNat < 2 ^ 31 := by rw [hJ]; omega
  have hz : (0#32 : BitVec 32).toNat < 2 ^ 31 := by decide
  -- the correction's condition is the zero bit
  have hc : IntOp.andi
        (IntOp.cmpi .ne
          (IntOp.subi ((IntOp.cmpi .sgt (BitVec.ofNat 32 j) 0#32).setWidth 32) ((IntOp.cmpi .slt (BitVec.ofNat 32 j) 0#32).setWidth 32))
          (Scalar.subi (Scalar.extui (Scalar.cmpi .sgt 256#32 0#32)) (Scalar.extui (Scalar.cmpi .slt 256#32 0#32))))
        (IntOp.cmpi .ne (IntOp.remsi .vector (BitVec.ofNat 32 j) 256#32) 0#32) = 0#1 := by
    have hslt : IntOp.cmpi .slt (BitVec.ofNat 32 j) 0#32 = 0#1 :=
      eq_zero_of_ne_one fun h => by
        have := (slt_iff_toNat hJ31 hz).mp h
        simp at this
    by_cases h0 : 0 < j
    · have hsgt : IntOp.cmpi .sgt (BitVec.ofNat 32 j) 0#32 = 1#1 :=
        (sgt_iff_toNat hJ31 hz).mpr (by rw [hJ]; exact h0)
      rw [hsgt, hslt]
      generalize IntOp.cmpi .ne (IntOp.remsi .vector (BitVec.ofNat 32 j) 256#32) 0#32 = b
      rcases BitVec.eq_zero_or_eq_one b with hb | hb <;> subst hb <;> decide
    · have hj0 : j = 0 := by omega
      subst hj0
      decide
  unfold maskW
  rw [hc, select_zero, cmpi_eq_iff]
  constructor
  · intro h
    have := congrArg BitVec.toNat h
    rw [divsi_256 _ hJ31, hJ, BitVec.toNat_ofNat] at this
    omega
  · intro h
    apply BitVec.eq_of_toNat_eq
    rw [divsi_256 _ hJ31, hJ, BitVec.toNat_ofNat]
    omega

/-- The first block's mask at (p, j). -/
theorem pay6_apply (p : Fin 8) (j : Fin 2048) : k0_pay6 (ix2 p j) = 1#1 ↔ j.val / 256 = p.val := by
  have e : k0_pay6 (ix2 p j)
      = maskW (iota .tc S8x2048 32 [1] iota_S8x2048_d1_w32 (ix2 p j)) (iota .tc S8x2048 32 [0] iota_S8x2048_d0_w32 (ix2 p j)) := rfl
  rw [e, iota_single_apply, iota_single_apply]
  exact maskW_iff j.val p.val j.isLt p.isLt

/-! ## A sum over 2048 columns that keeps one block of 256 -/

/-- Column j of 2048 as block j / 256 and place j % 256. -/
def blockEquiv : Fin 8 × Fin 256 ≃ Fin 2048 where
  toFun x := ⟨x.1.val * 256 + x.2.val, by have := x.1.isLt; have := x.2.isLt; omega⟩
  invFun j := (⟨j.val / 256, by have := j.isLt; omega⟩, ⟨j.val % 256, by omega⟩)
  left_inv x := by
    have h1 := x.1.isLt; have h2 := x.2.isLt
    refine Prod.ext (Fin.ext ?_) (Fin.ext ?_)
    · show (x.1.val * 256 + x.2.val) / 256 = x.1.val; omega
    · show (x.1.val * 256 + x.2.val) % 256 = x.2.val; omega
  right_inv j := by
    refine Fin.ext ?_
    show j.val / 256 * 256 + j.val % 256 = j.val; omega

/-- A sum over the 2048 columns whose term at column b·256 + m is f b m in block p and zero in every other block
    is the sum of f p over the 256 places. -/
theorem sum_block (f : Fin 8 → Fin 256 → EReal) (p : Fin 8) (g : Fin 2048 → EReal)
    (hg : ∀ (b : Fin 8) (m : Fin 256), g (blockEquiv (b, m)) = if b = p then f b m else 0) :
    ∑ j : Fin 2048, g j = ∑ m : Fin 256, f p m := by
  rw [← Equiv.sum_comp blockEquiv g, Fintype.sum_prod_type]
  simp only [hg]
  rw [Finset.sum_eq_single p]
  · simp
  · intro b _ hb; simp [hb]
  · intro h; exact absurd (Finset.mem_univ p) h

/-! ## The row statistics at an index -/

/-- A lane sum with the unit axis put back, at (p, m, 0): the sum over the row's 1024 columns. -/
theorem laneSum_apply (v : FVec Ideal S8x256x1024 .f32) (p : Fin 8) (m : Fin 256) :
    shapeCast S8x256x1 (multiReduction (F := Ideal) .add [2] S8x256 v 0x00000000#32 reduces_S8x256x1024_S8x256 (.inl rfl) rfl)
        shapeCasts_S8x256_S8x256x1 (ix3 p m (0 : Fin 1))
      = ∑ k : Fin 1024, v (ix3 p m k) := by
  refine (shapeCast_apply _ shapeCasts_S8x256_S8x256x1 (ix3 p m (0 : Fin 1)) (ix2 p m) ?_).trans ?_
  · rw [Shape.rowMajor_val_two, Shape.rowMajor_val_three]
    show p.val * 256 + m.val = (p.val * 256 + m.val) * 1 + 0
    omega
  · refine (Ideal.multiReduction_add_single v 0x00000000#32 reduces_S8x256x1024_S8x256 (.inl rfl) rfl (ix2 p m)).trans ?_
    exact Finset.sum_congr rfl fun k _ => congrArg v (funext fun a => Fin.ext (match a with | ⟨0, _⟩ => rfl | ⟨1, _⟩ => rfl | ⟨2, _⟩ => rfl))

/-- The kernel's row mean at (p, m, 0): the row's sum times 2⁻¹⁰. -/
theorem pay2_apply (x : Vec Ideal S8x256x1024 .f32) (p : Fin 8) (m : Fin 256) :
    k0_pay2 (F := Ideal) x (ix3 p m (0 : Fin 1)) = Cert.Spec.kMuRow (blkRows x p m) :=
  congrArg (· * Cert.Spec.cInvD) (laneSum_apply x p m)

/-- The kernel's reciprocal standard deviation at (p, m, 0): the row's sum of squares times 2⁻¹⁰, minus the mean
    squared, plus ε, under the reciprocal square root. -/
theorem pay3_apply (x : Vec Ideal S8x256x1024 .f32) (p : Fin 8) (m : Fin 256) :
    k0_pay3 (F := Ideal) x (ix3 p m (0 : Fin 1)) = Cert.Spec.kRstdRow (blkRows x p m) := by
  have e1 := laneSum_apply (mulf (F := Ideal) (φ := .f32) x x) p m
  have e2 := pay2_apply x p m
  have key : ∀ (s s' μ μ' : EReal), s = s' → μ = μ' →
      Ideal.rsqrt ((s * Cert.Spec.cInvD - μ * μ) + Cert.Spec.cEps) = Ideal.rsqrt ((s' * Cert.Spec.cInvD - μ' * μ') + Cert.Spec.cEps) :=
    fun _ _ _ _ h1 h2 => by rw [h1, h2]
  exact key _ _ _ _ e1 e2

/-- The second block's mean and reciprocal standard deviation are the same functions of their block. -/
theorem pay8_apply (x : Vec Ideal S8x256x1024 .f32) (p : Fin 8) (m : Fin 256) :
    k0_pay8 (F := Ideal) x (ix3 p m (0 : Fin 1)) = Cert.Spec.kMuRow (blkRows x p m) := pay2_apply x p m
theorem pay9_apply (x : Vec Ideal S8x256x1024 .f32) (p : Fin 8) (m : Fin 256) :
    k0_pay9 (F := Ideal) x (ix3 p m (0 : Fin 1)) = Cert.Spec.kRstdRow (blkRows x p m) := pay3_apply x p m

/-! ## The block reshaped to 2048 rows, the reciprocal deviations to one row of 2048 -/

/-- The block as [2048, 1024]: row b·256 + m is row m of batch b. -/
theorem pay4_apply (x : Vec Ideal S8x256x1024 .f32) (b : Fin 8) (m : Fin 256) (k : Fin 1024) :
    k0_pay4 (F := Ideal) x (ix2 (blockEquiv (b, m)) k) = x (ix3 b m k) := by
  refine shapeCast_apply x shapeCasts_S8x256x1024_S2048x1024 (ix2 (blockEquiv (b, m)) k) (ix3 b m k) ?_
  rw [Shape.rowMajor_val_two, Shape.rowMajor_val_three]
  rfl

/-- The [8, 256, 1] column as [1, 2048]: place b·256 + m is entry (b, m, 0). -/
theorem rowCast_apply (r : FVec Ideal S8x256x1 .f32) (b : Fin 8) (m : Fin 256) :
    shapeCast S1x2048 r shapeCasts_S8x256x1_S1x2048 (ix2 (0 : Fin 1) (blockEquiv (b, m))) = r (ix3 b m (0 : Fin 1)) := by
  refine shapeCast_apply r shapeCasts_S8x256x1_S1x2048 (ix2 (0 : Fin 1) (blockEquiv (b, m))) (ix3 b m (0 : Fin 1)) ?_
  rw [Shape.rowMajor_val_two, Shape.rowMajor_val_three]
  show (b.val * 256 + m.val) * 1 + 0 = 0 * 2048 + (b.val * 256 + m.val)
  omega

/-- A [1, 1024] row laid along 8 rows reads the row. -/
theorem rowBroadcast_apply (v : FVec Ideal S1x1024 .f32) (p : Fin 8) (k : Fin 1024) :
    broadcastTo S8x1024 v broadcasts_S1x1024_S8x1024 (ix2 p k) = v (ix2 (0 : Fin 1) k) :=
  broadcastTo_apply v broadcasts_S1x1024_S8x1024 (ix2 p k) (ix2 (0 : Fin 1) k) fun a =>
    match a with | ⟨0, _⟩ => rfl | ⟨1, _⟩ => rfl

/-- Row p of the masked row of 2048 at column j: the row's entry where the mask holds, zero elsewhere. -/
theorem maskedRow_apply (mask : IVec S8x2048 1)
    (hmask : ∀ (p : Fin 8) (j : Fin 2048), mask (ix2 p j) = 1#1 ↔ j.val / 256 = p.val)
    (rrow : FVec Ideal S1x2048 .f32) (p : Fin 8) (j : Fin 2048) :
    select mask (broadcastTo S8x2048 (shapeCast S1x2048 rrow shapeCasts_S1x2048_S1x2048) broadcasts_S1x2048_S8x2048)
        (broadcast S8x2048 (Scalar.ofBits (F := Ideal) .f32 0x00000000#32)) (ix2 p j)
      = if j.val / 256 = p.val then rrow (ix2 (0 : Fin 1) j) else 0 := by
  have hb : broadcastTo S8x2048 (shapeCast S1x2048 rrow shapeCasts_S1x2048_S1x2048) broadcasts_S1x2048_S8x2048 (ix2 p j)
      = rrow (ix2 (0 : Fin 1) j) := by
    refine (broadcastTo_apply _ broadcasts_S1x2048_S8x2048 (ix2 p j) (ix2 (0 : Fin 1) j) fun a =>
      match a with | ⟨0, _⟩ => rfl | ⟨1, _⟩ => rfl).trans ?_
    rw [shapeCast_self]
  refine (select_apply mask _ _ (ix2 p j)).trans ?_
  by_cases h : j.val / 256 = p.val
  · rw [if_pos h, (hmask p j).mpr h, select_one]; exact hb
  · rw [if_neg h, eq_zero_of_ne_one (fun h1 => h ((hmask p j).mp h1)), select_zero]
    exact Ideal.ofBits_zero_f32

/-- The sum over a batch's 256 rows of an [8, 256, 1] column, laid along the 1024 columns. -/
theorem rowSum_apply (v : FVec Ideal S8x256x1 .f32) (p : Fin 8) (k : Fin 1024) :
    broadcastTo S8x1024 (multiReduction (F := Ideal) .add [1] S8x1 v 0x00000000#32 reduces_S8x256x1_S8x1 (.inl rfl) rfl)
        broadcasts_S8x1_S8x1024 (ix2 p k)
      = ∑ m : Fin 256, v (ix3 p m (0 : Fin 1)) := by
  refine (broadcastTo_apply _ broadcasts_S8x1_S8x1024 (ix2 p k) (ix2 p (0 : Fin 1)) fun a =>
    match a with | ⟨0, _⟩ => rfl | ⟨1, _⟩ => rfl).trans ?_
  refine (Ideal.multiReduction_add_single v 0x00000000#32 reduces_S8x256x1_S8x1 (.inl rfl) rfl (ix2 p (0 : Fin 1))).trans ?_
  exact Finset.sum_congr rfl fun m _ => congrArg v (funext fun a => Fin.ext (match a with | ⟨0, _⟩ => rfl | ⟨1, _⟩ => rfl | ⟨2, _⟩ => rfl))

/-! ## One half block pooled -/

/-- The pooled half at (p, k): the product of the masked row with the 2048 rows keeps batch p's 256 rows, and the
    sum of mean · reciprocal deviation over those rows is taken off. -/
theorem half_apply (x : Vec Ideal S8x256x1024 .f32) (μ r : FVec Ideal S8x256x1 .f32) (X : FVec Ideal S2048x1024 .f32)
    (rrow : FVec Ideal S1x2048 .f32) (mask : IVec S8x2048 1)
    (hmask : ∀ (p : Fin 8) (j : Fin 2048), mask (ix2 p j) = 1#1 ↔ j.val / 256 = p.val)
    (hμ : ∀ b m, μ (ix3 b m (0 : Fin 1)) = Cert.Spec.kMuRow (blkRows x b m))
    (hr : ∀ b m, r (ix3 b m (0 : Fin 1)) = Cert.Spec.kRstdRow (blkRows x b m))
    (hX : ∀ b m k, X (ix2 (blockEquiv (b, m)) k) = x (ix3 b m k))
    (hrow : ∀ b m, rrow (ix2 (0 : Fin 1) (blockEquiv (b, m))) = r (ix3 b m (0 : Fin 1)))
    (p : Fin 8) (k : Fin 1024) :
    k0_pay7 (F := Ideal) μ r X rrow mask (ix2 p k) = Cert.Spec.kHalfOf (blkRows x p) k := by
  unfold k0_pay7 Cert.Spec.kHalfOf
  refine (subf_apply _ _ _).trans (congrArg₂ (· - ·) ?_ ?_)
  · refine (Cert.LibOuterDot.matmul_zero_ix2 dot_S8x2048_S2048x1024_S8x1024_1_0_0_1_n_n rfl rfl rfl rfl rfl rfl rfl rfl none _ X p k).trans ?_
    refine sum_block (fun b m => Cert.Spec.kRstdRow (blkRows x b m) * blkRows x b m k) p _ fun b m => ?_
    rw [maskedRow_apply mask hmask rrow p (blockEquiv (b, m)), hX b m k, hrow b m, hr b m]
    have hcond : (blockEquiv (b, m)).val / 256 = p.val ↔ b = p := by
      have h1 := b.isLt; have h2 := m.isLt
      show (b.val * 256 + m.val) / 256 = p.val ↔ b = p
      rw [Fin.ext_iff]; omega
    by_cases hbp : b = p
    · rw [if_pos (hcond.mpr hbp), if_pos hbp]; rfl
    · rw [if_neg (fun h => hbp (hcond.mp h)), if_neg hbp, zero_mul]
  · refine (rowSum_apply (mulf (F := Ideal) μ r) p k).trans ?_
    exact Finset.sum_congr rfl fun m _ => by rw [mulf_apply, hμ p m, hr p m]

/-! ## The second block's mask, as the stored value spells it -/

/-- The mask from the second block's carried words: the truncated quotient lowered by one where the sign test and
    the remainder say so, compared with the row number. -/
def mask2 (v70 v72 : IVec S8x2048 32) (v86 : IVec S8x2048 1) (v87 : IVec S8x2048 32) : IVec S8x2048 1 :=
  cmpi .eq
    (select (andi v86 (cmpi .ne (remsi v70 v87) (broadcast S8x2048 0#32))) (subi v72 (broadcast S8x2048 1#32)) v72)
    (iota .tc S8x2048 32 [0] iota_S8x2048_d0_w32)

/-- It is the same mask. -/
theorem mask2_apply (p : Fin 8) (j : Fin 2048) :
    mask2 (iota .tc S8x2048 32 [1] iota_S8x2048_d1_w32) k0_pay12 k0_pay13 k0_pay14 (ix2 p j) = 1#1 ↔ j.val / 256 = p.val := by
  have e : mask2 (iota .tc S8x2048 32 [1] iota_S8x2048_d1_w32) k0_pay12 k0_pay13 k0_pay14 (ix2 p j)
      = maskW (iota .tc S8x2048 32 [1] iota_S8x2048_d1_w32 (ix2 p j)) (iota .tc S8x2048 32 [0] iota_S8x2048_d0_w32 (ix2 p j)) := rfl
  rw [e, iota_single_apply, iota_single_apply]
  exact maskW_iff j.val p.val j.isLt p.isLt

/-! ## The stored value from the first half and the second block's pieces -/

/-- Entry (0, p, q) of the stored value: the first half plus the second, scaled by 2⁻⁹, gain and bias applied, is
    row p of the left factor of the product with the weight matrix; the weight bias is added. -/
theorem pay1_apply (h0 : FVec Ideal S8x1024 .f32) (μ r : FVec Ideal S8x256x1 .f32) (X : FVec Ideal S2048x1024 .f32)
    (rrow : FVec Ideal S1x2048 .f32) (v70 v72 : IVec S8x2048 32) (v86 : IVec S8x2048 1) (v87 : IVec S8x2048 32)
    (g b : Vec Ideal S1x1024 .f32) (w : Vec Ideal S1024x1024 .f32) (wb : Vec Ideal S1x1024 .f32) (p : Fin 8) (q : Fin 1024) :
    k0_pay1 (F := Ideal) h0 μ r X rrow v70 v72 v86 v87 g b w wb (ix3 (0 : Fin 1) p q)
      = (∑ k : Fin 1024,
          (((h0 (ix2 p k) + k0_pay7 (F := Ideal) μ r X rrow (mask2 v70 v72 v86 v87) (ix2 p k)) * Cert.Spec.cInvSeq)
              * g (ix2 (0 : Fin 1) k) + b (ix2 (0 : Fin 1) k)) * w (ix2 k q))
        + wb (ix2 (0 : Fin 1) q) := by
  unfold k0_pay1
  refine (shapeCast_apply _ shapeCasts_S8x1024_S1x8x1024 (ix3 (0 : Fin 1) p q) (ix2 p q) ?_).trans ?_
  · rw [Shape.rowMajor_val_two, Shape.rowMajor_val_three]
    show p.val * 1024 + q.val = (0 * 8 + p.val) * 1024 + q.val
    omega
  refine (addf_apply _ _ _).trans (congrArg₂ (· + ·) ?_ ?_)
  · refine (Cert.LibOuterDot.matmul_zero_ix2 dot_S8x1024_S1024x1024_S8x1024_1_0_0_1_n_n rfl rfl rfl rfl rfl rfl rfl rfl none _ w p q).trans ?_
    refine Finset.sum_congr rfl fun k _ => congrArg (· * w (ix2 k q)) ?_
    exact congrArg₂ (fun s t => ((h0 (ix2 p k) + k0_pay7 (F := Ideal) μ r X rrow (mask2 v70 v72 v86 v87) (ix2 p k)) * Cert.Spec.cInvSeq) * s + t)
      (rowBroadcast_apply g p k) (rowBroadcast_apply b p k)
  · refine (rowBroadcast_apply _ p q).trans ?_
    rw [shapeCast_self]

/-- The stored value at entry (0, p, q). -/
theorem kpay_apply (x0 x1 : Vec Ideal S8x256x1024 .f32) (xg xb : Vec Ideal S1x1024 .f32) (xw : Vec Ideal S1024x1024 .f32)
    (xwb : Vec Ideal S1x1024 .f32) (p : Fin 8) (q : Fin 1024) :
    kpay (F := Ideal) x0 x1 xg xb xw xwb (ix3 (0 : Fin 1) p q)
      = (∑ k : Fin 1024, Cert.Spec.kPooledOf (blkRows x0 p) (blkRows x1 p) (rowVec xg) (rowVec xb) k * xw (ix2 k q)) + rowVec xwb q := by
  unfold kpay
  refine (pay1_apply _ _ _ _ _ _ _ _ _ xg xb xw xwb p q).trans ?_
  refine congrArg (· + xwb (ix2 (0 : Fin 1) q)) (Finset.sum_congr rfl fun k _ => congrArg (· * xw (ix2 k q)) ?_)
  rw [half_apply x0 (k0_pay2 x0) (k0_pay3 x0) (k0_pay4 x0) (k0_pay5 x0) k0_pay6 pay6_apply (pay2_apply x0) (pay3_apply x0)
      (pay4_apply x0) (fun b m => rowCast_apply (k0_pay3 x0) b m) p k,
    half_apply x1 (k0_pay8 x1) (k0_pay9 x1) (k0_pay10 x1) (k0_pay11 x1) _ mask2_apply (pay8_apply x1) (pay9_apply x1)
      (pay4_apply x1) (fun b m => rowCast_apply (k0_pay9 x1) b m) p k]
  rfl

end Cert.KernelIdeal.Hand

end
-- ==== Proof.KArray.lean ====
/-
  The kernel's output array after the eight write-backs, as one function of the launched arguments.

  Point t writes block t of the [8, 8, 1024] output: row p of it is the stored function of the point's blocks at (0, p, ·),
  which is Σ k pooled(8t + p, k) · w(k, ·) + wb(·) with pooled the kernel's pooled vector of batch 8t + p, because the
  point's two context blocks hold exactly the two half sequences of batches 8t .. 8t + 7 and the other four blocks are the
  whole gain, bias, weight matrix and weight bias. The eight blocks cover the array, so the array ends at that function.
-/
import proofs.«152959_g2000505949230300_pallasbulk_1065_16_alg».proof.Proof.KBlocks
import proofs.«152959_g2000505949230300_pallasbulk_1065_16_alg».proof.Proof.KPay
import proofs.«152959_g2000505949230300_pallasbulk_1065_16_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The kernel's result as Spec states it, of the launched arguments on core c. -/
abbrev kOutOf (c : Dev nD) : Cert.Spec.SOut.Idx → EReal :=
  Cert.Spec.kOut (m ((c : Thread nD τ).loc main_arg0)) (m ((c : Thread nD τ).loc main_arg1)) (m ((c : Thread nD τ).loc main_arg2))
    (m ((c : Thread nD τ).loc main_arg3)) (m ((c : Thread nD τ).loc main_arg4))

/-- Row of batch β of the result, at column q. -/
def rowOut (c : Dev nD) (β : Fin 64) (q : Fin 1024) : EReal := kOutOf m c (ix3 β (0 : Fin 1) q)

/-- … which is Σ k pooled(β, k) · w(k, q) + wb(q), pooled the kernel's pooled vector of batch β. -/
theorem rowOut_eq (c : Dev nD) (β : Fin 64) (q : Fin 1024) :
    rowOut m c β q
      = (∑ k : Fin 1024, Cert.Spec.kPooledOf (Cert.Spec.half (m ((c : Thread nD τ).loc main_arg0)) β 0)
            (Cert.Spec.half (m ((c : Thread nD τ).loc main_arg0)) β 1) (Cert.Spec.vecOf (m ((c : Thread nD τ).loc main_arg1)))
            (Cert.Spec.vecOf (m ((c : Thread nD τ).loc main_arg2))) k * m ((c : Thread nD τ).loc main_arg3) (ix2 k q))
        + m ((c : Thread nD τ).loc main_arg4) (ix1 q) := rfl

/-- The region's output array [8, 8, 1024]: row p of tile i is batch 8i + p of the result. -/
def tiled (c : Dev nD) : S8x8x1024.Idx → EReal := fun i =>
  rowOut m c (⟨8 * (i 0).val + (i 1).val, by
    have h0 : (i 0).val < 8 := (i 0).isLt
    have h1 : (i 1).val < 8 := (i 1).isLt
    omega⟩ : Fin 64) (i 2)

/-! ## The point's blocks are the batch's two half sequences, the gain, the bias, the matrix, the weight bias -/

theorem rows0 (c : Dev nD) (t : Fin cfg0.N) (p : Fin 8) :
    blkRows (blk0 m c t) p = Cert.Spec.half (m ((c : Thread nD τ).loc main_arg0)) (batchOf t p) 0 := by
  funext r k
  show blk0 m c t (ix3 p r k) = _
  rw [blk0_apply]
  unfold Cert.Spec.half
  refine congrArg _ (congrArg (fun x => ix3 (batchOf t p) x k) (Fin.ext ?_))
  show r.val = (0 : Fin 2).val * 256 + r.val
  simp

theorem rows1 (c : Dev nD) (t : Fin cfg0.N) (p : Fin 8) :
    blkRows (blk1 m c t) p = Cert.Spec.half (m ((c : Thread nD τ).loc main_arg0)) (batchOf t p) 1 := by
  funext r k
  show blk1 m c t (ix3 p r k) = _
  rw [blk1_apply]
  unfold Cert.Spec.half
  refine congrArg _ (congrArg (fun x => ix3 (batchOf t p) x k) (Fin.ext ?_))
  show 256 + r.val = (1 : Fin 2).val * 256 + r.val
  simp

theorem gain_eq (c : Dev nD) (t : Fin cfg0.N) : rowVec (blk2 m c t) = Cert.Spec.vecOf (m ((c : Thread nD τ).loc main_arg1)) := by
  funext k; exact blk2_apply m c t k

theorem bias_eq (c : Dev nD) (t : Fin cfg0.N) : rowVec (blk3 m c t) = Cert.Spec.vecOf (m ((c : Thread nD τ).loc main_arg2)) := by
  funext k; exact blk3_apply m c t k

/-! ## What a point writes back is its block of the tiled result -/

/-- The output window's block index over the eight points: block (t, 0, 0). -/
theorem out_idx : ∀ t : Fin cfg0.N,
    win0_6.index t (0 : Fin 3) = t.val ∧ win0_6.index t (1 : Fin 3) = 0 ∧ win0_6.index t (2 : Fin 3) = 0 :=
  (by decide +kernel : ∀ t : Fin grid0.N, _)

theorem flushed_eq (c : Dev nD) (t : Fin cfg0.N) :
    (dats m 0 c).flushed 6 t = ((cfg0.win 6).blk t).view.read (Elt Ideal) (tiled m c) := by
  rw [flushed6]
  funext y
  obtain ⟨o, p, q, rfl⟩ : ∃ (o : Fin 1) (p : Fin 8) (q : Fin 1024), y = ix3 o p q := ⟨y 0, y 1, y 2, eq_ix3 y⟩
  obtain rfl : o = 0 := Subsingleton.elim _ _
  show kpay (blk0 m c t) (blk1 m c t) (blk2 m c t) (blk3 m c t) (blk4 m c t) (blk5 m c t) (ix3 (0 : Fin 1) p q)
    = tiled m c (((cfg0.win 6).blk t).view.emb (ix3 (0 : Fin 1) p q))
  refine (kpay_apply _ _ _ _ _ _ p q).trans ?_
  obtain ⟨h0, h1, h2⟩ := out_idx t
  have he : ((cfg0.win 6).blk t).view.emb (ix3 (0 : Fin 1) p q) = ix3 (⟨t.val, lt_of_lt_of_eq t.isLt (show cfg0.N = 8 from N_0)⟩ : Fin 8) p q := by
    funext a; apply Fin.ext
    match a with
    | ⟨0, _⟩ => show win0_6.index t (0 : Fin 3) * 1 + 1 * 0 = t.val; rw [h0]; omega
    | ⟨1, _⟩ => show win0_6.index t (1 : Fin 3) * 8 + 1 * p.val = p.val; rw [h1]; omega
    | ⟨2, _⟩ => show win0_6.index t (2 : Fin 3) * 1024 + 1 * q.val = q.val; rw [h2]; omega
  rw [he]
  show _ = rowOut m c (batchOf t p) q
  rw [rowOut_eq, rows0, rows1, gain_eq, bias_eq]
  congr 1
  · exact Finset.sum_congr rfl fun k _ => congrArg _ (blk4_apply m c t k q)
  · exact blk5_apply m c t q

/-! ## The eight blocks cover the array -/

theorem mem_blk (t : Fin cfg0.N) (i : S8x8x1024.Idx) :
    i ∈ ((cfg0.win 6).blk t).view.set ↔ ∀ a : Fin 3, win0_6.index t a * S1x8x1024.size a ≤ (i a).val ∧ (i a).val < win0_6.index t a * S1x8x1024.size a + S1x8x1024.size a := by
  show i ∈ ((View.whole main_v1).slice (win0_6.rect t)).set ↔ _
  rw [View.set_slice_whole, Rect.mem_set_unit]
  exact Iff.rfl

theorem covered (i : S8x8x1024.Idx) : ∃ t : Fin cfg0.N, (cfg0.win 6).flush t = true ∧ i ∈ ((cfg0.win 6).blk t).view.set := by
  have hi0 : (i 0).val < 8 := (i 0).isLt
  have hi1 : (i 1).val < 8 := (i 1).isLt
  have hi2 : (i 2).val < 1024 := (i 2).isLt
  refine ⟨⟨(i 0).val, lt_of_lt_of_eq hi0 (show 8 = cfg0.N from N_0.symm)⟩, flush0_6 _, ?_⟩
  rw [mem_blk]
  obtain ⟨h0, h1, h2⟩ := out_idx ⟨(i 0).val, lt_of_lt_of_eq hi0 (show 8 = cfg0.N from N_0.symm)⟩
  intro a
  match a with
  | ⟨0, _⟩ => show win0_6.index _ (0 : Fin 3) * 1 ≤ (i 0).val ∧ (i 0).val < win0_6.index _ (0 : Fin 3) * 1 + 1; rw [h0]; constructor <;> simp
  | ⟨1, _⟩ => show win0_6.index _ (1 : Fin 3) * 8 ≤ (i 1).val ∧ (i 1).val < win0_6.index _ (1 : Fin 3) * 8 + 8; rw [h1]; omega
  | ⟨2, _⟩ => show win0_6.index _ (2 : Fin 3) * 1024 ≤ (i 2).val ∧ (i 2).val < win0_6.index _ (2 : Fin 3) * 1024 + 1024; rw [h2]; omega

/-- The output array after the run. -/
theorem final (c : Dev nD) : (dats m 0 c).arrAt 6 cfg0.N = tiled m c :=
  (dats m 0 c).arrAt_eq_of_cover 6 (tiled m c) (fun t _ => flushed_eq m c t) (covered)

end Cert.KernelIdeal.Hand

end
-- ==== Proof.KLaunch.lean ====
/-
  The kernel's run, at any float instance: @main is one host operation (the weight bias reshaped), the region, one host
  operation (the result reshaped). Between them the core holds every array of @main whole; at the region's entry the
  context array's share is halved between the two windows that read it, and joined again at the exit; the other arrays
  go to their windows whole. The run ends with the reshaped result of the region's output array as the write-backs left
  it, and every argument as launched.
-/
import proofs.«152959_g2000505949230300_pallasbulk_1065_16_alg».proof.Proof.KBody
import Idealize.ShloMosaic.Lib.Pipeline.Regions
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace LaunchRun

/-! ## The seven windows' arrays and the six buffers behind them, one by one

Windows 0 and 1 read one array, the context: the proof data gives window 0 the left half of its share and window 1 the
right half. Windows 2 to 5 read an array each, whole; window 6, the output, writes its array and holds it whole. -/

/-- The windows' arrays at contents G, written out: the context array twice, at the two halves of its share. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_arg2) ↦{fullShare} G 3)
          ∗ (((c : Thread nD τ).loc main_arg3) ↦{fullShare} G 4) ∗ (((c : Thread nD τ).loc main_v0) ↦{fullShare} G 5)
          ∗ (((c : Thread nD τ).loc main_v1) ↦{fullShare} G 6)) := by
  unfold Dat.arrays
  rw [bigSep_W0]
  -- every window's array is a whole buffer (windows 0 and 1 name the same one: one rewrite serves both)
  rw [(arr_whole0 0).set_eq_univ, (arr_whole0 2).set_eq_univ, (arr_whole0 3).set_eq_univ,
    (arr_whole0 4).set_eq_univ, (arr_whole0 5).set_eq_univ, (arr_whole0 6).set_eq_univ]
  rfl

/-- The distinct buffers behind the windows' arrays, each whole at contents W: six of them. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_arg3) ↦{fullShare} W main_arg3)
          ∗ (((c : Thread nD τ).loc main_v0) ↦{fullShare} W main_v0) ∗ (((c : Thread nD τ).loc main_v1) ↦{fullShare} W main_v1)) := by
  unfold Pipeline.arrBufs
  exact bigSep_eq_bigSepL_of_eq [main_arg0, main_arg1, main_arg2, main_arg3, main_v0, main_v1] (by decide) (by decide) _

/-- At the entry the six buffers make the seven windows' arrays at their entry contents: the context array's full share
    is its left half and its right half, both at the same contents; every other buffer goes to its one window. -/
theorem entry_arrays (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [show ((dats m 0 c).arrAt · 0) = fun w => V m c (Pipeline.arrRef spec0 w) from funext (A_eq m c)]
  rw [arrBufs_chain, arrays_chain]
  iintro ⟨H0, H1, H2, H3, H5, H6⟩
  ihave H0 := (pointsTo_share (PosShare.mem_left_op_right fullShare)).1 $$ H0
  icases H0 with ⟨H0a, H0b⟩
  isplitl [H0a]; · iexact H0a
  isplitl [H0b]; · iexact H0b
  isplitl [H1]; · iexact H1
  isplitl [H2]; · iexact H2
  isplitl [H3]; · iexact H3
  isplitl [H5]; · iexact H5
  iexact H6

/-! ## The buffers between the items of @main -/

/-- Core c's buffers at launch. -/
abbrev W0 (c : Dev nD) : Valuation τ sig (Elt F) := fun b => m (c, b)
/-- After the reshape of the weight bias: what the region is entered from (the body's V, at every buffer). -/
abbrev W1 (c : Dev nD) : Valuation τ sig (Elt F) := StableHlo.after hostOps0 (W0 m c)
/-- At the region's exit: the output array at what the eight write-backs leave, every other buffer as entered. -/
def W2 (c : Dev nD) : Valuation τ sig (Elt F) :=
  Function.update (W1 m c) (Proc.devRef .tc main_v1) ((dats m 0 c).arrAt 6 cfg0.N)
/-- After the reshape of the result. -/
abbrev W3 (c : Dev nD) : Valuation τ sig (Elt F) := StableHlo.after hostOps1 (W2 m c)

theorem W2_main_v1 (c : Dev nD) : W2 m c (Proc.devRef .tc main_v1) = (dats m 0 c).arrAt 6 cfg0.N := by
  unfold W2; exact Function.update_self _ _ _

theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) _ _

/-- Each window's array after the last point is what W2 holds there: an input array is never written, so it is as
    entered; the output's is the fold of the write-backs. -/
theorem arrAtN_eq (c : Dev nD) : ∀ w : Fin cfg0.W, (dats m 0 c).arrAt w cfg0.N = W2 m c (Proc.devRef .tc (Pipeline.arrRef spec0 w))
  | ⟨0, _⟩ => ((dats m 0 c).arrAt_in 0 rfl _).trans ((A_eq m c 0).trans (W2_of_ne m c main_arg0 (by decide)).symm)
  | ⟨1, _⟩ => ((dats m 0 c).arrAt_in 1 rfl _).trans ((A_eq m c 1).trans (W2_of_ne m c main_arg0 (by decide)).symm)
  | ⟨2, _⟩ => ((dats m 0 c).arrAt_in 2 rfl _).trans ((A_eq m c 2).trans (W2_of_ne m c main_arg1 (by decide)).symm)
  | ⟨3, _⟩ => ((dats m 0 c).arrAt_in 3 rfl _).trans ((A_eq m c 3).trans (W2_of_ne m c main_arg2 (by decide)).symm)
  | ⟨4, _⟩ => ((dats m 0 c).arrAt_in 4 rfl _).trans ((A_eq m c 4).trans (W2_of_ne m c main_arg3 (by decide)).symm)
  | ⟨5, _⟩ => ((dats m 0 c).arrAt_in 5 rfl _).trans ((A_eq m c 5).trans (W2_of_ne m c main_v0 (by decide)).symm)
  | ⟨6, _⟩ => (W2_main_v1 m c).symm

/-- At the exit the seven windows' arrays make the six buffers at W2: the two halves of the context array's share hold
    the same contents again and join to the full share. -/
theorem exit_arrays (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => W2 m c (Proc.devRef .tc b)) := by
  rw [show ((dats m 0 c).arrAt · cfg0.N) = fun w => W2 m c (Proc.devRef .tc (Pipeline.arrRef spec0 w)) from funext (arrAtN_eq m c)]
  rw [arrBufs_chain, arrays_chain]
  iintro ⟨H0a, H0b, H1, H2, H3, H5, H6⟩
  ihave H0 := (pointsTo_share (PosShare.mem_left_op_right fullShare)).2 $$ [H0a H0b]
  · isplitl [H0a]; · iexact H0a
    iexact H0b
  isplitl [H0]; · iexact H0
  isplitl [H1]; · iexact H1
  isplitl [H2]; · iexact H2
  isplitl [H3]; · iexact H3
  isplitl [H5]; · iexact H5
  iexact H6

/-- ENTRY, the buffers' part: every unscoped buffer at the entry contents is the windows' arrays at their entry contents
    and the two buffers no window names (the weight bias before its reshape, the result's reshape). -/
theorem held_entry (c : Dev nD) :
    (StableHlo.held (c : Thread nD τ) (Pipeline.ucRefs τ sig) (W1 m c) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  rw [← Pipeline.unscopedBufs_held c (W1 m c), Pipeline.unscopedBufs_split₀ cfgs 0 winFacts₀0.arr_unscoped c]
  exact sep_mono (entry_arrays m c) .rfl

/-- EXIT, the buffers' part: the converse at the exit contents; the two buffers no window names are where W2 agrees
    with the entry contents. -/
theorem held_exit (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (W2 m c) : sProp 𝕄) := by
  rw [← Pipeline.unscopedBufs_held c (W2 m c), Pipeline.unscopedBufs_split₀ cfgs 0 winFacts₀0.arr_unscoped c]
  refine sep_mono (exit_arrays m c) (Entails.of_eq ?_)
  rw [unscopedRest0_eq, unscopedRest0_eq]
  rw [W2_of_ne m c main_arg4 (by decide), W2_of_ne m c main_v2 (by decide)]

/-! ## The proof data family and the thread state -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dats m 0 c
/-- No core owes another anything: no level is assigned. -/
abbrev L : GSem nD τ sig → Finset Unit := fun _ => ∅
abbrev lv : GSem nD τ sig → Unit → ℕ := fun _ _ => 0
/-- Beside the buffers, through every item: the generator register at some state, and the core owing nothing. -/
abbrev R (c : Dev nD) : sProp 𝕄 := iprop((∃ r, prngReg c r) ∗ ∃ W, owes (c : Thread nD τ) (0 : CellTallies nD τ sig Unit) W)

/-- Neither reshape allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host operations from the contents W, the rest of the thread state riding along: it ends at the
    operations' results folded over W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The region's four entailments -/

/-- A core owing nothing, whatever it has recorded, owes the proof data's first tallies (none) within their bound
    (everything). -/
theorem owes_in (c : Dev nD) :
    iprop(∃ W, owes (c : Thread nD τ) (0 : CellTallies nD τ sig Unit) W) ⊢ ((dats m 0 c).owesAt () 0 : sProp 𝕄) := by
  iintro ⟨%W, Howes⟩
  iexists W
  isplitr
  · ipureintro; intro x _; exact Or.inl trivial
  iexact Howes

/-- After the last point it owes nothing still. -/
theorem owes_out (c : Dev nD) :
    ((dats m 0 c).owesAt () (Fin.last cfg0.N) : sProp 𝕄) ⊢ iprop(∃ W, owes (c : Thread nD τ) (0 : CellTallies nD τ sig Unit) W) := by
  iintro ⟨%W, -, Howes⟩
  iexists W
  iexact Howes

/-- The pipeline has no prefetched table: holding them all is holding nothing. -/
theorem no_tables (c : Dev nD) :
    (Pipeline.prefHeld (pcfgs (F := F) 0).pre c (fun _ => fullShare) (adm (F := F) 0).1 : sProp 𝕄) = (BI.emp : sProp 𝕄) :=
  BI.bigSep_empty

/-- ENTRY: the thread state sorted into the windows' arrays, the core's owes, the generator register (which enters the
    invariant) and the two buffers that bypass the region. -/
theorem region_entry (c : Dev nD) :
    iprop((StableHlo.held (c : Thread nD τ) (Pipeline.ucRefs τ sig) (W1 m c) ∗ R c)
        ∗ Pipeline.ownSems0 (fun k : PEmpty => k.elim) c ∗ levAts L lv)
      ⊢ |={Set.univ}=> iprop((dats m 0 c).arrays ((dats m 0 c).arrAt · 0)
          ∗ Pipeline.prefHeld (pcfgs (F := F) 0).pre c (fun _ => fullShare) (adm (F := F) 0).1
          ∗ (dats m 0 c).owesAt () 0 ∗ (∃ r, prngReg c r)
          ∗ Pipeline.unscopedRest (Ix := Unit) (Name := ℕ) (U := UR sig nD τ) (Lvl := ℕ) spec0 c (V m c)) := by
  rw [no_tables]
  iintro ⟨⟨Hbufs, Hgen, Howes⟩, -, -⟩
  ihave Hsplit := (held_entry m c) $$ Hbufs
  icases Hsplit with ⟨Harr, Hrest⟩
  imodintro
  isplitl [Harr]; · iexact Harr
  isplitr; · iempintro
  isplitl [Howes]; · iapply (owes_in m c); iexact Howes
  isplitl [Hgen]; · iexact Hgen
  iexact Hrest

/-- The invariant at the first point: the scoped buffers no window stages, and the generator register. -/
theorem region_in (c : Dev nD) :
    iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c)
      ⊢ ((dats m 0 c).Φ 0 : sProp 𝕄) := by
  show _ ⊢ Pipeline.ΦA spec0 c
  unfold Pipeline.ΦA
  iintro ⟨Hgen, -, Hscoped⟩
  isplitl [Hscoped]; · iexact Hscoped
  iexact Hgen

/-- The invariant at the last point gives both back; the kernel has no semaphore of its own. -/
theorem region_out (c : Dev nD) :
    ((dats m 0 c).Φ (Fin.last cfg0.N) : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) spec0 c) := by
  show Pipeline.ΦA spec0 c ⊢ _
  unfold Pipeline.ΦA
  rw [Pipeline.ownSems0_none]
  iintro ⟨Hscoped, Hgen⟩
  isplitl [Hgen]; · iexact Hgen
  isplitr; · iempintro
  iexact Hscoped

/-- EXIT: the arrays at their final contents and the two bypassing buffers are every unscoped buffer at W2; the
    generator register and the owes as before. -/
theorem region_exit (c : Dev nD) :
    iprop((dats m 0 c).arrays ((dats m 0 c).arrAt · cfg0.N) ∗ (dats m 0 c).owesAt () (Fin.last cfg0.N) ∗ (∃ r, prngReg c r)
        ∗ Pipeline.unscopedRest (Ix := Unit) (Name := ℕ) (U := UR sig nD τ) (Lvl := ℕ) spec0 c (V m c))
      ⊢ |={Set.univ}=> iprop(StableHlo.held (c : Thread nD τ) (Pipeline.ucRefs τ sig) (W2 m c) ∗ R c) := by
  iintro ⟨Harr, Howes, Hgen, Hrest⟩
  imodintro
  isplitl [Harr Hrest]
  · iapply (held_exit m c)
    isplitl [Harr]; · iexact Harr
    iexact Hrest
  isplitl [Hgen]; · iexact Hgen
  iapply (owes_out m c); iexact Howes

-- the fields are stated over the family's member at pipeline 0, which is the body's proof data only after unfolding
-- plain definitions in a metavariable's type
set_option backward.isDefEq.respectTransparency.types false in
/-- The region over the thread state: entered from every unscoped buffer at W1, left at W2. -/
def reg0 : Pipeline.RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := region_entry m c
  hin c := region_in m c
  hout c := region_out m c
  hexit c := region_exit m c

/-! ## What the last boundary holds -/

/-- The result: the reshape of the region's output array as the write-backs left it. -/
theorem W3_main_v2 (c : Dev nD) :
    W3 m c (Proc.devRef .tc main_v2) = shapeCast S64x1x1024 ((dats m 0 c).arrAt 6 cfg0.N) shapeCasts_S8x8x1024_S64x1x1024 := by
  show StableHlo.after hostOps1 (W2 m c) (Proc.devRef .tc main_v2) = _
  simp only [StableHlo.after_cons, StableHlo.after_nil]
  rw [StableHlo.reshape_result, W2_main_v1]
  rfl

/-- A buffer that is neither reshape's result nor the region's output ends as launched: the second reshape writes
    only the result, the region only its output array, the first reshape only the reshaped weight bias. -/
theorem W3_of_arg (c : Dev nD) (b : Ref sig .tc) (h0 : b ≠ main_v0) (h1 : b ≠ main_v1) (h2 : b ≠ main_v2) :
    W3 m c (Proc.devRef .tc b) = m ((c : Thread nD τ).loc b) :=
  calc W3 m c (Proc.devRef .tc b)
    _ = W2 m c (Proc.devRef .tc b) := StableHlo.after_of_forall_not_mem (b := Proc.devRef .tc b) _ _ (by
          intro op hop
          rw [List.mem_singleton.mp hop, StableHlo.reshape_writes, Finset.mem_singleton]
          exact StableHlo.devRef_ne_of_ne h2)
    _ = W1 m c (Proc.devRef .tc b) := W2_of_ne m c b h1
    _ = W0 m c (Proc.devRef .tc b) := StableHlo.after_of_forall_not_mem (b := Proc.devRef .tc b) _ _ (by
          intro op hop
          rw [List.mem_singleton.mp hop, StableHlo.reshape_writes, Finset.mem_singleton]
          exact StableHlo.devRef_ne_of_ne h0)
    _ = m ((c : Thread nD τ).loc b) := rfl

/-! ## @main as segments, and the launch -/

/-- @main's three items in order: the first reshape from the launch contents, the region, the second reshape from the
    region's exit contents. -/
abbrev segs : List (Pipeline.Seg (pcfgs (F := F)) adm (pdats m) () defs₀ Variants.none L lv) :=
  [ .host (hseg hostOps0 hostOps0_sub hostOps0_fresh (W0 m)),
    .region (reg0 m),
    .host (hseg hostOps1 hostOps1_sub hostOps1_fresh (W2 m)) ]

/-- @main is the run of those items. -/
theorem main_run (c : Dev nD) : main (F := F) c = Pipeline.Seg.run (segs m) := (main_chain c).trans (by chain_rfl)

/-- The last thread state, the owes apart: every unscoped buffer at W3, the generator register at some state. -/
abbrev Tₙ (c : Dev nD) : sProp 𝕄 := iprop(StableHlo.held (c : Thread nD τ) (Pipeline.ucRefs τ sig) (W3 m c) ∗ ∃ r, prngReg c r)

/-- What the second reshape leaves is that state beside the core owing nothing. -/
theorem last_link (c : Dev nD) :
    iprop(StableHlo.held (c : Thread nD τ) (Pipeline.ucRefs τ sig) (W3 m c) ∗ R c)
      ⊢ iprop(Tₙ m c ∗ ∃ W, owes (c : Thread nD τ) (0 : CellTallies nD τ sig Unit) W) := by
  iintro ⟨Hbufs, Hgen, Howes⟩
  isplitr [Howes]
  · isplitl [Hbufs]; · iexact Hbufs
    iexact Hgen
  iexact Howes

/-- The launch element is the pipeline's own, as it stands; no core gets a ghost resource besides. -/
theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  rw [BI.bigSep_emp_const]
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iempintro

/-- What the launch deals a core makes its first thread state: the buffers as launched, the generator register at its
    launch state, nothing owed and nothing recorded. -/
theorem core_init (c : Dev nD) :
    iprop((unscopedBufs c (fun b => m ((c : Thread nD τ).loc b)) ∗ unscopedSems0 c
          ∗ owes (c : Thread nD τ) (0 : CellTallies nD τ sig Unit) ∅ ∗ Pipeline.launchCred (0 : Dev nD → CellTallies nD τ sig Unit) c
          ∗ prngReg c (ρ c) ∗ (BI.emp : sProp 𝕄)) ∗ levAts L lv)
      ⊢ |={Set.univ}=> iprop(StableHlo.held (c : Thread nD τ) (Pipeline.ucRefs τ sig) (W0 m c) ∗ R c) := by
  rw [show unscopedBufs c (fun b => m ((c : Thread nD τ).loc b)) = StableHlo.held (c : Thread nD τ) (Pipeline.ucRefs τ sig) (W0 m c)
    from Pipeline.unscopedBufs_held c (W0 m c)]
  iintro ⟨⟨Hbufs, -, Howes, -, Hgen, -⟩, -⟩
  imodintro
  isplitl [Hbufs]; · iexact Hbufs
  isplitl [Hgen]
  · iexists (ρ c); iexact Hgen
  iexists ∅; iexact Howes

/-- The last thread state read against a final state: the memory holds W3 at every unscoped buffer. -/
theorem read_last (c : Dev nD) (s' : Phys nD τ sig (Elt F)) :
    iprop(Tₙ m c ∗ SI s') ⊢ |={Set.univ}=> iprop(⌜∀ b ∈ Pipeline.ucRefs τ sig, s'.mem.mem (((c : Thread nD τ)).1, b) = W3 m c b⌝ ∗ SI s') := by
  iintro ⟨⟨Hbufs, -⟩, HSI⟩
  unfold StableHlo.held
  imodintro
  iapply (pointsTo_read_all (Pipeline.ucRefs τ sig) (fun b => (((c : Thread nD τ)).1, b)) (W3 m c) s')
  isplitl [Hbufs]; · iexact Hbufs
  iexact HSI

end LaunchRun

open LaunchRun in
-- the launch theorem's implicit arguments are found by unifying its conclusion with this one, which takes unfolding
-- plain definitions in a metavariable's type
set_option backward.isDefEq.respectTransparency.types false in
/-- Every weakly fair execution of the kernel's @main terminates; the result is the reshape of the region's output
    array after its eight write-backs, and the arguments are as launched. -/
theorem run_main : θ_run (defs (F := F)) (onTc (τ := τ) (main (F := F))) ⟨m, fun _ => 0, ρ⟩ fun r => ∀ c : Dev nD,
      r.2.mem ((c : Thread nD τ).loc main_v2)
        = shapeCast S64x1x1024 ((dats m 0 c).arrAt 6 cfg0.N) shapeCasts_S8x8x1024_S64x1x1024
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_elem)
    (T₀ := fun c => iprop(StableHlo.held (c : Thread nD τ) (Pipeline.ucRefs τ sig) (W0 m c) ∗ R c)) (Tₙ := Tₙ m)
    (hch := ⟨fun _ => .rfl, fun _ => .rfl, fun _ => .rfl, last_link m⟩)
    (hinit := Pipeline.initEach L lv (core_init m ρ))
    (QY := fun c s => ∀ b ∈ Pipeline.ucRefs τ sig, s.mem (((c : Thread nD τ)).1, b) = W3 m c b)
    (hfin := read_last m)
    (hQ := fun s h c =>
      ⟨(h c _ (mem_uc main_v2 (by decide))).trans (W3_main_v2 m c),
       (h c _ (mem_uc main_arg0 (by decide))).trans (W3_of_arg m c main_arg0 (by decide) (by decide) (by decide)),
       (h c _ (mem_uc main_arg1 (by decide))).trans (W3_of_arg m c main_arg1 (by decide) (by decide) (by decide)),
       (h c _ (mem_uc main_arg2 (by decide))).trans (W3_of_arg m c main_arg2 (by decide) (by decide) (by decide)),
       (h c _ (mem_uc main_arg3 (by decide))).trans (W3_of_arg m c main_arg3 (by decide) (by decide) (by decide)),
       (h c _ (mem_uc main_arg4 (by decide))).trans (W3_of_arg m c main_arg4 (by decide) (by decide) (by decide))⟩)

end Cert.KernelIdeal.Hand

end
-- ==== Proof.KValue.lean ====
/-
  The kernel's run with its result named: the result array [64, 1, 1024] is the reshape of the region's [8, 8, 1024]
  output, batch β being row β % 8 of tile β / 8; with the output array at its function of the launched arguments, the
  result is the kernel's side of the specification.
-/
import proofs.«152959_g2000505949230300_pallasbulk_1065_16_alg».proof.Proof.KArray
import proofs.«152959_g2000505949230300_pallasbulk_1065_16_alg».proof.Proof.KLaunch
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The reshaped output array is the kernel's result as the specification states it. -/
theorem reshaped (c : Dev nD) :
    shapeCast S64x1x1024 ((dats m 0 c).arrAt 6 cfg0.N) shapeCasts_S8x8x1024_S64x1x1024 = kOutOf m c := by
  rw [final]
  funext i
  obtain ⟨β, o, q, rfl⟩ : ∃ (β : Fin 64) (o : Fin 1) (q : Fin 1024), i = ix3 β o q := ⟨i 0, i 1, i 2, eq_ix3 i⟩
  obtain rfl : o = 0 := Subsingleton.elim _ _
  have hβ : β.val < 64 := β.isLt
  refine (shapeCast_apply (tiled m c) shapeCasts_S8x8x1024_S64x1x1024 (ix3 β (0 : Fin 1) q)
    (ix3 (⟨β.val / 8, by omega⟩ : Fin 8) (⟨β.val % 8, by omega⟩ : Fin 8) q) ?_).trans ?_
  · rw [Shape.rowMajor_val_three, Shape.rowMajor_val_three]
    show (β.val / 8 * 8 + β.val % 8) * 1024 + q.val = (β.val * 1 + 0) * 1024 + q.val
    have := Nat.div_add_mod' β.val 8
    omega
  · show rowOut m c _ q = rowOut m c β q
    refine congrArg (fun b => rowOut m c b q) (Fin.ext ?_)
    show 8 * (β.val / 8) + β.val % 8 = β.val
    omega

/-- Every weakly fair execution of the kernel ends with its result at the kernel's side of the specification, of the
    launched arguments, which are unchanged. -/
theorem run_value : θ_run (defs (F := Ideal)) (onTc (τ := τ) (main (F := Ideal))) ⟨m, fun _ => 0, ρ⟩ fun r => ∀ c : Dev nD,
      r.2.mem ((c : Thread nD τ).loc main_v2) = kOutOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run (defs (F := Ideal)) _ _).mono (fun r h c => ⟨(h c).1.trans (reshaped m c), (h c).2⟩) (run_main (F := Ideal) m ρ)

end Cert.KernelIdeal.Hand

end
-- ==== Proof.RefValue.lean ====
/-
  The reference's result array as one function of its argument arrays.

  The grid is 64 batches by 2 half sequences. At the first half of a batch the accumulator is reset to zero and the
  half's 256 normalized rows are added to it; at the second half the other 256 rows are added, the accumulator is
  scaled by 2⁻⁹, multiplied by the weight matrix, the weight bias added, and the row written to the batch's block of the
  result, which is written back once, after the batch's second point.

  The steps. (1) What each of the two control cases leaves in the accumulator and in the result block is the body's
  arithmetic of the blocks it loads. (2) That arithmetic read at an index over the extended reals: a row's mean is its
  sum divided by 1024, the variance the mean of the squared centred entries, a normalized entry
  (v − mean)·rsqrt(var + ε)·g + b; the row mask compares 256·(half) + r with 512 and is on for every row; the column
  sums run over the half's 256 rows; the product with the weight matrix is a sum over its 1024 rows. (3) The block the
  sequence window holds at point t = 2β + h is rows 256h … 256h + 255 of batch β; the other input windows hold their
  whole arrays, the weight bias after it was given a leading unit axis. (4) So after the second half of batch β the
  accumulator at column k is 0 + (first half's sum) + (second half's sum), and the result block at column q is the
  specification at (β, 0, q). (5) Row β of the result lies in the block written back after point 2β + 1, so the whole
  array ends at the specification.
-/
import proofs.«152959_g2000505949230300_pallasbulk_1065_16_alg».proof.Proof.Gen.ReferenceIdeal.Value
import proofs.«152959_g2000505949230300_pallasbulk_1065_16_alg».proof.Proof.Spec
import proofs.«152959_g2000505949230300_pallasbulk_1065_16_alg».proof.Proof.LibOuterDot
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import Idealize.ShloMosaic.PureOps.Ideal.Laws

noncomputable section

open scoped BigOperators

namespace Cert.ReferenceIdeal.Hand

open Cert.ReferenceIdeal Cert.ReferenceIdeal.Gen
open Idealize.ShloMosaic Idealize.ShloMosaic.TcCoe Idealize.ShloMosaic.ValueIdx Idealize.ShloMosaic.Tactic Idealize.SL.Sem
open Idealize.ShloMosaic.Pipeline (Dat)

/-! ## What each control case leaves, as the body's arithmetic of the loaded blocks -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a first half the accumulator is stored as zero, read back, and the half's column sums added to it. -/
theorem scratch_A (c : Dev nD) (i : grid0.Coords) (a2 : Memref sig .tc .vmem S1x256x1024 .f32) (h2 : a2.IsWhole) (a3 : Memref sig .tc .vmem S1x1024 .f32) (h3 : a3.IsWhole) (a4 : Memref sig .tc .vmem S1x1024 .f32) (h4 : a4.IsWhole) (a5 : Memref sig .tc .vmem S1024x1024 .f32) (h5 : a5.IsWhole) (a6 : Memref sig .tc .vmem S1x1024 .f32) (h6 : a6.IsWhole) (a7 : Memref sig .tc .vmem S1x1x1024 .f32) (h7 : a7.IsWhole) (a8 : Memref sig .tc .vmem S1x1024 .f32) (h8 : a8.IsWhole) (hc0 : cond0_0 i) (hc1 : ¬cond0_1 i)
    (x0 : Vec F S1x256x1024 .f32) (x1 : Vec F S1x1024 .f32) (x2 : Vec F S1x1024 .f32) (x3 : Vec F S1024x1024 .f32) (x4 : Vec F S1x1024 .f32) :
    sout0_A_0 c i a2 h2 a3 h3 a4 h4 a5 h5 a6 h6 a7 h7 a8 h8 hc0 hc1 x0 x1 x2 x3 x4 = k0_pay1 (k0_pay3 (F := F)) (k0_pay4 i x0 x1 x2) := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S1x1024) hz2, View.readCov_unit_zero (S := S1x1024) _ hz2]
  simp only [View.readAt_eq_ld, h2.read_unread, h3.read_unread, h4.read_unread, View.ld_unit_zero (S := S1x256x1024) hz3,
    View.ld_unit_zero (S := S1x1024) hz2]

/-- At a second half the half's column sums are added to what the first half left. -/
theorem scratch_B (c : Dev nD) (i : grid0.Coords) (a2 : Memref sig .tc .vmem S1x256x1024 .f32) (h2 : a2.IsWhole) (a3 : Memref sig .tc .vmem S1x1024 .f32) (h3 : a3.IsWhole) (a4 : Memref sig .tc .vmem S1x1024 .f32) (h4 : a4.IsWhole) (a5 : Memref sig .tc .vmem S1024x1024 .f32) (h5 : a5.IsWhole) (a6 : Memref sig .tc .vmem S1x1024 .f32) (h6 : a6.IsWhole) (a7 : Memref sig .tc .vmem S1x1x1024 .f32) (h7 : a7.IsWhole) (a8 : Memref sig .tc .vmem S1x1024 .f32) (h8 : a8.IsWhole) (hc0 : ¬cond0_0 i) (hc1 : cond0_1 i)
    (x0 : Vec F S1x256x1024 .f32) (x1 : Vec F S1x1024 .f32) (x2 : Vec F S1x1024 .f32) (x3 : Vec F S1024x1024 .f32) (x4 : Vec F S1x1024 .f32) (xs0 : Vec F S1x1024 .f32) :
    sout0_B_0 c i a2 h2 a3 h3 a4 h4 a5 h5 a6 h6 a7 h7 a8 h8 hc0 hc1 x0 x1 x2 x3 x4 xs0 = k0_pay1 xs0 (k0_pay4 i x0 x1 x2) := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  sl_unfold_words
  rw [View.canon_unit_zero hz2]
  simp only [View.readAt_eq_ld, h2.read_unread, h3.read_unread, h4.read_unread, h8.read_unread, View.ld_unit_zero (S := S1x256x1024) hz3,
    View.ld_unit_zero (S := S1x1024) hz2]

/-- At a second half the result block is the finished accumulator scaled, multiplied by the weight matrix, the weight
    bias added. -/
theorem out_B (c : Dev nD) (i : grid0.Coords) (a2 : Memref sig .tc .vmem S1x256x1024 .f32) (h2 : a2.IsWhole) (a3 : Memref sig .tc .vmem S1x1024 .f32) (h3 : a3.IsWhole) (a4 : Memref sig .tc .vmem S1x1024 .f32) (h4 : a4.IsWhole) (a5 : Memref sig .tc .vmem S1024x1024 .f32) (h5 : a5.IsWhole) (a6 : Memref sig .tc .vmem S1x1024 .f32) (h6 : a6.IsWhole) (a7 : Memref sig .tc .vmem S1x1x1024 .f32) (h7 : a7.IsWhole) (a8 : Memref sig .tc .vmem S1x1024 .f32) (h8 : a8.IsWhole) (hc0 : ¬cond0_0 i) (hc1 : cond0_1 i)
    (x0 : Vec F S1x256x1024 .f32) (x1 : Vec F S1x1024 .f32) (x2 : Vec F S1x1024 .f32) (x3 : Vec F S1024x1024 .f32) (x4 : Vec F S1x1024 .f32) (xs0 : Vec F S1x1024 .f32) :
    out0_B_5 c i a2 h2 a3 h3 a4 h4 a5 h5 a6 h6 a7 h7 a8 h8 hc0 hc1 x0 x1 x2 x3 x4 xs0 = k0_pay2 (k0_pay1 xs0 (k0_pay4 i x0 x1 x2)) x3 x4 := by
  unfold out0_B_5
  rw [View.read_writes_eq_canon _ _ _ (cover0_B_5 c i a2 h2 a3 h3 a4 h4 a5 h5 a6 h6 a7 h7 a8 h8 hc0 hc1 x0 x1 x2 x3 x4 xs0)]
  unfold kernelRun0_B
  dsimp only
  sl_unfold_words
  rw [View.canon_unit_zero hz3]
  simp only [View.readAt_eq_ld, h2.read_unread, h3.read_unread, h4.read_unread, h5.read_unread, h6.read_unread, h8.read_unread,
    View.readCov_unit_zero (S := S1x1024) _ hz2, View.ld_unit_zero (S := S1x256x1024) hz3,
    View.ld_unit_zero (S := S1x1024) hz2, View.ld_unit_zero (S := S1024x1024) hz2]

end Pieces

/-! ## Layout operations of a column, read at an index -/

section Layout
variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two lane sums, and the row mask -/

/-- The sum along a row of a [256, 1024] block. -/
theorem rowSum_apply (v : FVec Ideal S256x1024 .f32) (h : S256x1024.Reduces [1] S256) (hφ : FKind.Formats .f32)
    (hacc : (0x00000000#32 : BitVec 32) = FKind.add.neutral .f32 hφ) (r : Fin 256) :
    multiReduction .add [1] S256 v 0x00000000#32 h hφ hacc (ix1 r) = ∑ k : Fin 1024, v (ix2 r k) :=
  (Ideal.multiReduction_add_single v 0x00000000#32 h hφ hacc (ix1 r)).trans
    (Finset.sum_congr rfl fun k _ => congrArg v (funext fun a => Fin.ext (by
      match a with
      | ⟨0, _⟩ => rfl
      | ⟨1, _⟩ => rfl)))

/-- The sum down a column of a [256, 1024] block. -/
theorem colSum_apply (v : FVec Ideal S256x1024 .f32) (h : S256x1024.Reduces [0] S1024) (hφ : FKind.Formats .f32)
    (hacc : (0x00000000#32 : BitVec 32) = FKind.add.neutral .f32 hφ) (k : Fin 1024) :
    multiReduction .add [0] S1024 v 0x00000000#32 h hφ hacc (ix1 k) = ∑ r : Fin 256, v (ix2 r k) :=
  (Ideal.multiReduction_add_single v 0x00000000#32 h hφ hacc (ix1 k)).trans
    (Finset.sum_congr rfl fun r _ => congrArg v (funext fun a => Fin.ext (by
      match a with
      | ⟨0, _⟩ => rfl
      | ⟨1, _⟩ => rfl)))

/-- Row 256·h + r of a half h < 2 is below the sequence length 512: the row mask is on everywhere. -/
theorem mask_on : ∀ (h : Fin 2) (r : Fin 256),
    IntOp.cmpi .slt (IntOp.addi (Scalar.muli (BitVec.ofNat 32 h.val) 256#32) (BitVec.ofNat 32 r.val)) 512#32 = 1#1 := by
  decide +kernel

/-! ## The body's arithmetic, stage by stage, each stage read at an index -/

/-- The row sums of a [256, 1024] block as a column, each divided by c. -/
def rowMean (v : FVec Ideal S256x1024 .f32) (c : Ideal .f32) : FVec Ideal S256x1 .f32 :=
  divf (shapeCast S256x1 (multiReduction .add [1] S256 v 0x00000000#32 reduces_S256x1024_S256 (.inl rfl) rfl) shapeCasts_S256_S256x1)
    (broadcast S256x1 c)

theorem rowMean_apply (v : FVec Ideal S256x1024 .f32) (c : Ideal .f32) (r : Fin 256) :
    rowMean v c (ix2 r (0 : Fin 1)) = Ideal.div (∑ k : Fin 1024, v (ix2 r k)) c := by
  unfold rowMean
  rw [divf_apply, broadcast_apply, shapeCast_a_a1_apply]
  exact congrArg (fun s => Ideal.div s c) (rowSum_apply v _ _ _ r)

/-- Each row minus its mean. -/
def cen (v : FVec Ideal S256x1024 .f32) : FVec Ideal S256x1024 .f32 :=
  subf v (broadcastTo S256x1024 (rowMean v (Scalar.ofBits .f32 0x44800000#32)) broadcasts_S256x1_S256x1024)

theorem cen_apply (v : FVec Ideal S256x1024 .f32) (r : Fin 256) (k : Fin 1024) :
    cen v (ix2 r k) = Cert.Spec.rCen (fun k' => v (ix2 r k')) k := by
  unfold cen Cert.Spec.rCen Cert.Spec.rMuRow
  rw [subf_apply, broadcastTo_a1_ab_apply, rowMean_apply]
  rfl

/-- Each row's reciprocal standard deviation, as a column. -/
def rstdCol (v : FVec Ideal S256x1024 .f32) : FVec Ideal S256x1 .f32 :=
  rsqrt (addf (rowMean (mulf (cen v) (cen v)) (Scalar.ofBits .f32 0x44800000#32)) (broadcast S256x1 (Scalar.ofBits .f32 0x3727C5AC#32)))

theorem rstdCol_apply (v : FVec Ideal S256x1024 .f32) (r : Fin 256) :
    rstdCol v (ix2 r (0 : Fin 1)) = Cert.Spec.rRstdRow (fun k' => v (ix2 r k')) := by
  unfold rstdCol Cert.Spec.rRstdRow
  show Ideal.rsqrt (rowMean (mulf (cen v) (cen v)) (Scalar.ofBits .f32 0x44800000#32) (ix2 r (0 : Fin 1)) + _) = _
  rw [rowMean_apply]
  simp only [mulf_apply, cen_apply]
  rfl

/-- Each row normalized, scaled by the gain and shifted by the bias. -/
def normed (v : FVec Ideal S256x1024 .f32) (g b : Vec Ideal S1x1024 .f32) : FVec Ideal S256x1024 .f32 :=
  addf (mulf (mulf (cen v) (broadcastTo S256x1024 (rstdCol v) broadcasts_S256x1_S256x1024))
    (broadcastTo S256x1024 g broadcasts_S1x1024_S256x1024)) (broadcastTo S256x1024 b broadcasts_S1x1024_S256x1024)

theorem normed_apply (v : FVec Ideal S256x1024 .f32) (g b : Vec Ideal S1x1024 .f32) (r : Fin 256) (k : Fin 1024) :
    normed v g b (ix2 r k)
      = Cert.Spec.rNormRow (fun k' => v (ix2 r k')) (fun k' => g (ix2 (0 : Fin 1) k')) (fun k' => b (ix2 (0 : Fin 1) k')) k := by
  unfold normed Cert.Spec.rNormRow
  rw [addf_apply, mulf_apply, mulf_apply, broadcastTo_a1_ab_apply, broadcastTo_1b_ab_apply, broadcastTo_1b_ab_apply,
    cen_apply, rstdCol_apply]

/-- The row mask: row 256·(the half) + r against the sequence length. -/
def rowMask (i : grid0.Coords) : IVec S256x1024 1 :=
  cmpi .slt (addi (broadcast S256x1024 (Scalar.muli (BitVec.ofNat 32 (i 1).val) 256#32)) (iota .tc S256x1024 32 [0] iota_S256x1024_d0_w32))
    (broadcast S256x1024 512#32)

theorem rowMask_apply (i : grid0.Coords) (r : Fin 256) (k : Fin 1024) : rowMask i (ix2 r k) = 1#1 := by
  unfold rowMask
  show IntOp.cmpi .slt (IntOp.addi (Scalar.muli (BitVec.ofNat 32 (i 1).val) 256#32) (iota .tc S256x1024 32 [0] iota_S256x1024_d0_w32 (ix2 r k))) 512#32 = 1#1
  rw [iota_single_apply]
  exact mask_on (i 1) r

/-- A half's column sums: the body's arithmetic is the stages above, composed. -/
theorem pay4_eq (i : grid0.Coords) (x0 : Vec Ideal S1x256x1024 .f32) (g b : Vec Ideal S1x1024 .f32) :
    k0_pay4 i x0 g b
      = multiReduction .add [0] S1024 (select (rowMask i) (normed (shapeCast S256x1024 x0 shapeCasts_S1x256x1024_S256x1024) g b)
          (broadcast S256x1024 (Scalar.ofBits .f32 0x00000000#32))) 0x00000000#32 reduces_S256x1024_S1024 (.inl rfl) rfl := rfl

/-- A half's column sums at column k: the sum over the half's 256 rows of the normalized row at k. -/
theorem pay4_apply (i : grid0.Coords) (x0 : Vec Ideal S1x256x1024 .f32) (g b : Vec Ideal S1x1024 .f32) (k : Fin 1024) :
    k0_pay4 i x0 g b (ix1 k)
      = Cert.Spec.rHalfOf (fun r k' => x0 (ix3 (0 : Fin 1) r k')) (fun k' => g (ix2 (0 : Fin 1) k')) (fun k' => b (ix2 (0 : Fin 1) k')) k := by
  rw [pay4_eq]
  refine (colSum_apply _ _ _ _ k).trans ?_
  unfold Cert.Spec.rHalfOf
  refine Finset.sum_congr rfl fun r _ => ?_
  rw [select_apply, rowMask_apply, select_one, normed_apply]
  simp only [shapeCast_1ab_ab_apply]

/-- The reset block is zero. -/
theorem pay3_apply (k : Fin 1024) : k0_pay3 (F := Ideal) (ix2 (0 : Fin 1) k) = 0 := by
  unfold k0_pay3
  simp only [shapeCast_self]
  exact Ideal.ofBits_zero_f32

/-- The accumulator's update at column k: what it held plus the half's column sum. -/
theorem pay1_apply (acc : Vec Ideal S1x1024 .f32) (s : FVec Ideal S1024 .f32) (k : Fin 1024) :
    k0_pay1 acc s (ix2 (0 : Fin 1) k) = acc (ix2 (0 : Fin 1) k) + s (ix1 k) := by
  unfold k0_pay1
  simp only [shapeCast_self]
  rw [addf_apply, shapeCast_a_1a_apply]

/-- The result block at column q: the accumulator scaled by 2⁻⁹, times column q of the weight matrix, plus the weight
    bias at q. -/
theorem pay2_apply (acc : Vec Ideal S1x1024 .f32) (w : Vec Ideal S1024x1024 .f32) (wb : Vec Ideal S1x1024 .f32)
    (u v : Fin 1) (q : Fin 1024) :
    k0_pay2 acc w wb (ix3 u v q)
      = (∑ k : Fin 1024, (acc (ix2 (0 : Fin 1) k) * Cert.Spec.cInvSeq) * w (ix2 k q)) + wb (ix2 (0 : Fin 1) q) := by
  obtain rfl : v = 0 := Subsingleton.elim _ _
  unfold k0_pay2
  simp only [shapeCast_self]
  rw [shapeCast_ab_1ab_apply, addf_apply]
  congr 1
  exact Cert.LibOuterDot.matmul_zero_ix2 dot_S1x1024_S1024x1024_S1x1024_1_0_0_1_n_n rfl rfl rfl rfl rfl rfl rfl rfl none _ w (0 : Fin 1) q

/-! ## The windows' blocks, read off the launched arrays -/

section Run
variable (m : (ℓ : Loc nD τ sig) → Buf (Elt Ideal) ℓ) (ρ : Dev nD → PrngReg)

/-- The launched argument arrays on core c. -/
abbrev ctxA (c : Dev nD) : Cert.Spec.SCtx.Idx → EReal := m ((c : Thread nD τ).loc main_arg0)
abbrev gA (c : Dev nD) : Cert.Spec.SVec.Idx → EReal := m ((c : Thread nD τ).loc main_arg1)
abbrev bA (c : Dev nD) : Cert.Spec.SVec.Idx → EReal := m ((c : Thread nD τ).loc main_arg2)
abbrev wA (c : Dev nD) : Cert.Spec.SMat.Idx → EReal := m ((c : Thread nD τ).loc main_arg3)
abbrev wbA (c : Dev nD) : Cert.Spec.SBias.Idx → EReal := m ((c : Thread nD τ).loc main_arg4)

/-- The input blocks at point t. -/
abbrev xblk (c : Dev nD) (t : Fin cfg0.N) : Vec Ideal S1x256x1024 .f32 := iblk m c 0 t
abbrev gblk (c : Dev nD) (t : Fin cfg0.N) : Vec Ideal S1x1024 .f32 := iblk m c 1 t
abbrev bblk (c : Dev nD) (t : Fin cfg0.N) : Vec Ideal S1x1024 .f32 := iblk m c 2 t
abbrev wblk (c : Dev nD) (t : Fin cfg0.N) : Vec Ideal S1024x1024 .f32 := iblk m c 3 t
abbrev wbblk (c : Dev nD) (t : Fin cfg0.N) : Vec Ideal S1x1024 .f32 := iblk m c 4 t

/-- The block indices over the grid: point t is batch t / 2, half t % 2; the sequence window moves with both, the result
    window with the batch, the other windows not at all. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 2 ∧ win0_5.index t (1 : Fin 3) = 0 ∧ win0_5.index t (2 : Fin 3) = 0 :=
  (by decide +kernel : ∀ t : Fin grid0.N, _)

/-- Row r of the sequence block at point t = 2β + h is row r of half h of batch β. -/
theorem xblk_apply (c : Dev nD) (t : Fin cfg0.N) (β : Fin 64) (h : Fin 2) (ht : t.val = 2 * β.val + h.val) (r : Fin 256) (k : Fin 1024) :
    xblk m c t (ix3 (0 : Fin 1) r k) = Cert.Spec.half (ctxA m c) β h r k := by
  obtain ⟨e0, e1, e2, -⟩ := idx_facts t
  have hh := h.isLt
  show V m c main_arg0 (((cfg0.win 0).blk t).view.emb (ix3 (0 : Fin 1) r k)) = _
  rw [V_main_arg0]
  unfold Cert.Spec.half
  refine congrArg (m ((c : Thread nD τ).loc main_arg0)) (funext fun a => Fin.ext ?_)
  match a with
  | ⟨0, _⟩ => show win0_0.index t (0 : Fin 3) * 1 + 1 * 0 = β.val; omega
  | ⟨1, _⟩ => show win0_0.index t (1 : Fin 3) * 256 + 1 * r.val = h.val * 256 + r.val; omega
  | ⟨2, _⟩ => show win0_0.index t (2 : Fin 3) * 1024 + 1 * k.val = k.val; omega

/-- The gain block is the whole gain. -/
theorem gblk_apply (c : Dev nD) (t : Fin cfg0.N) (k : Fin 1024) :
    gblk m c t (ix2 (0 : Fin 1) k) = Cert.Spec.vecOf (gA m c) k := by
  obtain ⟨-, -, -, e0, e1, -⟩ := idx_facts t
  show V m c main_arg1 (((cfg0.win 1).blk t).view.emb (ix2 (0 : Fin 1) k)) = _
  rw [V_main_arg1]
  unfold Cert.Spec.vecOf
  refine congrArg (m ((c : Thread nD τ).loc main_arg1)) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

/-- The bias block is the whole bias. -/
theorem bblk_apply (c : Dev nD) (t : Fin cfg0.N) (k : Fin 1024) :
    bblk m c t (ix2 (0 : Fin 1) k) = Cert.Spec.vecOf (bA m c) k := by
  obtain ⟨-, -, -, -, -, e0, e1, -⟩ := idx_facts t
  show V m c main_arg2 (((cfg0.win 2).blk t).view.emb (ix2 (0 : Fin 1) k)) = _
  rw [V_main_arg2]
  unfold Cert.Spec.vecOf
  refine congrArg (m ((c : Thread nD τ).loc main_arg2)) (funext fun a => Fin.ext ?_)
  match a with
  | ⟨0, _⟩ => show win0_2.index t (0 : Fin 2) * 1 + 1 * 0 = 0; omega
  | ⟨1, _⟩ => show win0_2.index t (1 : Fin 2) * 1024 + 1 * k.val = k.val; omega

/-- The weight block is the whole weight matrix. -/
theorem wblk_apply (c : Dev nD) (t : Fin cfg0.N) (k q : Fin 1024) :
    wblk m c t (ix2 k q) = wA m c (ix2 k q) := by
  obtain ⟨-, -, -, -, -, -, -, e0, e1, -⟩ := idx_facts t
  show V m c main_arg3 (((cfg0.win 3).blk t).view.emb (ix2 k q)) = _
  rw [V_main_arg3]
  refine congrArg (m ((c : Thread nD τ).loc main_arg3)) (funext fun a => Fin.ext ?_)
  match a with
  | ⟨0, _⟩ => show win0_3.index t (0 : Fin 2) * 1024 + 1 * k.val = k.val; omega
  | ⟨1, _⟩ => show win0_3.index t (1 : Fin 2) * 1024 + 1 * q.val = q.val; omega

/-- The array the region finds in the weight bias window: the launched weight bias given a leading unit axis. -/
theorem V_wb (c : Dev nD) :
    (V m c main_v0 : S1x1024.Idx → EReal) = shapeCast S1x1024 (m ((c : Thread nD τ).loc main_arg4)) shapeCasts_S1024_S1x1024 := by
  dsimp only [Gen.V, Gen.hostOps0]
  after_results
  rfl

/-- The weight bias block is the whole weight bias. -/
theorem wbblk_apply (c : Dev nD) (t : Fin cfg0.N) (q : Fin 1024) :
    wbblk m c t (ix2 (0 : Fin 1) q) = wbA m c (ix1 q) := by
  obtain ⟨-, -, -, -, -, -, -, -, -, e0, e1, -⟩ := idx_facts t
  show V m c main_v0 (((cfg0.win 4).blk t).view.emb (ix2 (0 : Fin 1) q)) = _
  rw [V_wb]
  refine Eq.trans (congrArg (shapeCast S1x1024 (m ((c : Thread nD τ).loc main_arg4)) shapeCasts_S1024_S1x1024) (funext fun a => Fin.ext ?_))
    (shapeCast_a_1a_apply (m ((c : Thread nD τ).loc main_arg4)) shapeCasts_S1024_S1x1024 (0 : Fin 1) q)
  match a with
  | ⟨0, _⟩ => show win0_4.index t (0 : Fin 2) * 1 + 1 * 0 = 0; omega
  | ⟨1, _⟩ => show win0_4.index t (1 : Fin 2) * 1024 + 1 * q.val = q.val; omega

/-! ## The accumulator and the result block, point by point -/

/-- The column sums of the half sequence read at point t. -/
def halfSum (c : Dev nD) (t : Fin cfg0.N) : FVec Ideal S1024 .f32 :=
  k0_pay4 (grid0.coords t) (xblk m c t) (gblk m c t) (bblk m c t)

/-- At point t = 2β + h they are the reference's sums over half h of batch β. -/
theorem halfSum_apply (c : Dev nD) (t : Fin cfg0.N) (β : Fin 64) (h : Fin 2) (ht : t.val = 2 * β.val + h.val) (k : Fin 1024) :
    halfSum m c t (ix1 k)
      = Cert.Spec.rHalfOf (Cert.Spec.half (ctxA m c) β h) (Cert.Spec.vecOf (gA m c)) (Cert.Spec.vecOf (bA m c)) k := by
  unfold halfSum
  refine (pay4_apply (grid0.coords t) (xblk m c t) (gblk m c t) (bblk m c t) k).trans ?_
  simp only [xblk_apply m c t β h ht, gblk_apply m c t, bblk_apply m c t]

/-- After a first half the accumulator is zero plus that half's sums. -/
theorem scratch_even (c : Dev nD) (t : Fin cfg0.N) (h0 : t.val % 2 = 0) (h1 : ¬t.val % 2 = 1) :
    (outsAt0 m c t.val t.isLt).2 = k0_pay1 (k0_pay3 (F := Ideal)) (halfSum m c t) := by
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h))
    (xblk m c t) (gblk m c t) (bblk m c t) (wblk m c t) (wbblk m c t)

/-- After a second half it is what the first half left plus the second half's sums. -/
theorem scratch_odd (c : Dev nD) (t : Fin cfg0.N) (h0 : ¬t.val % 2 = 0) (h1 : t.val % 2 = 1) :
    (outsAt0 m c t.val t.isLt).2
      = k0_pay1 (outsAt0 m c (t.val - 1) (Nat.lt_of_le_of_lt (Nat.sub_le _ _) t.isLt)).2 (halfSum m c t) := by
  rw [outsAt0_B m c t h0 h1]
  dsimp only
  exact scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1)
    (xblk m c t) (gblk m c t) (bblk m c t) (wblk m c t) (wbblk m c t) (outsAt0 m c (t.val - 1) (Nat.lt_of_le_of_lt (Nat.sub_le _ _) t.isLt)).2

/-- … and the result block is that accumulator scaled, multiplied by the weight matrix, the weight bias added. -/
theorem out_odd (c : Dev nD) (t : Fin cfg0.N) (h0 : ¬t.val % 2 = 0) (h1 : t.val % 2 = 1) :
    (outsAt0 m c t.val t.isLt).1
      = k0_pay2 (k0_pay1 (outsAt0 m c (t.val - 1) (Nat.lt_of_le_of_lt (Nat.sub_le _ _) t.isLt)).2 (halfSum m c t)) (wblk m c t) (wbblk m c t) := by
  rw [outsAt0_B m c t h0 h1]
  dsimp only
  exact out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1)
    (xblk m c t) (gblk m c t) (bblk m c t) (wblk m c t) (wbblk m c t) (outsAt0 m c (t.val - 1) (Nat.lt_of_le_of_lt (Nat.sub_le _ _) t.isLt)).2

/-- The finished accumulator at the second half t = 2β + 1 of batch β, at column k: zero plus the first half's sums plus
    the second half's. -/
theorem acc_apply (c : Dev nD) (t : Fin cfg0.N) (β : Fin 64) (ht : t.val = 2 * β.val + 1) (k : Fin 1024) :
    k0_pay1 (outsAt0 m c (t.val - 1) (Nat.lt_of_le_of_lt (Nat.sub_le _ _) t.isLt)).2 (halfSum m c t) (ix2 (0 : Fin 1) k)
      = Cert.Spec.rHalfOf (Cert.Spec.half (ctxA m c) β 0) (Cert.Spec.vecOf (gA m c)) (Cert.Spec.vecOf (bA m c)) k
        + Cert.Spec.rHalfOf (Cert.Spec.half (ctxA m c) β 1) (Cert.Spec.vecOf (gA m c)) (Cert.Spec.vecOf (bA m c)) k := by
  have hp : t.val - 1 < cfg0.N := Nat.lt_of_le_of_lt (Nat.sub_le _ _) t.isLt
  have e := scratch_even m c ⟨t.val - 1, hp⟩ (by show (t.val - 1) % 2 = 0; omega) (by show ¬(t.val - 1) % 2 = 1; omega)
  refine (pay1_apply _ (halfSum m c t) k).trans ?_
  rw [halfSum_apply m c t β 1 (by show t.val = 2 * β.val + 1; exact ht) k]
  refine congrArg (fun s => s + _) ?_
  refine (congrFun e (ix2 (0 : Fin 1) k)).trans ?_
  refine (pay1_apply (k0_pay3 (F := Ideal)) (halfSum m c ⟨t.val - 1, hp⟩) k).trans ?_
  rw [pay3_apply, zero_add]
  exact halfSum_apply m c ⟨t.val - 1, hp⟩ β 0 (by show t.val - 1 = 2 * β.val + 0; omega) k

/-- The result block after the second half of batch β, at column q. -/
theorem out_apply (c : Dev nD) (t : Fin cfg0.N) (β : Fin 64) (ht : t.val = 2 * β.val + 1) (u v : Fin 1) (q : Fin 1024) :
    (outsAt0 m c t.val t.isLt).1 (ix3 u v q)
      = (∑ k : Fin 1024, Cert.Spec.rPooledOf (Cert.Spec.half (ctxA m c) β 0) (Cert.Spec.half (ctxA m c) β 1)
            (Cert.Spec.vecOf (gA m c)) (Cert.Spec.vecOf (bA m c)) k * wA m c (ix2 k q)) + wbA m c (ix1 q) := by
  rw [out_odd m c t (by omega) (by omega)]
  refine (pay2_apply _ (wblk m c t) (wbblk m c t) u v q).trans ?_
  rw [wbblk_apply m c t q]
  refine congrArg (fun s => s + _) (Finset.sum_congr rfl fun k _ => ?_)
  rw [acc_apply m c t β ht k, wblk_apply m c t k q]
  rfl

/-! ## The result array -/

/-- The specification at an index of batch β and column q. -/
theorem rOut_apply (ctx : Cert.Spec.SCtx.Idx → EReal) (g b : Cert.Spec.SVec.Idx → EReal) (w : Cert.Spec.SMat.Idx → EReal)
    (wb : Cert.Spec.SBias.Idx → EReal) (i : Cert.Spec.SOut.Idx) (β : Fin 64) (q : Fin 1024) (hβ : (i 0).val = β.val) (hq : (i 2).val = q.val) :
    Cert.Spec.rOut ctx g b w wb i
      = (∑ k : Fin 1024, Cert.Spec.rPooledOf (Cert.Spec.half ctx β 0) (Cert.Spec.half ctx β 1) (Cert.Spec.vecOf g) (Cert.Spec.vecOf b) k
          * w (ix2 k q)) + wb (ix1 q) := by
  obtain rfl : i 0 = β := Fin.ext hβ
  obtain rfl : i 2 = q := Fin.ext hq
  rfl

/-- What a second half writes back is its block of the specification. -/
theorem flushed_eq (c : Dev nD) (t : Fin cfg0.N) (hf : (cfg0.win 5).flush t = true) :
    (dats m 0 c).flushed 5 t
      = ((cfg0.win 5).blk t).view.read (Elt Ideal) (Cert.Spec.rOut (ctxA m c) (gA m c) (bA m c) (wA m c) (wbA m c)) := by
  have h1 : t.val % 2 = 1 := (flush0_5 t).mp hf
  have hN : t.val < 128 := lt_of_lt_of_eq t.isLt (show cfg0.N = 128 from N_0)
  obtain ⟨-, -, -, -, -, -, -, -, -, -, -, e0, e1, e2⟩ := idx_facts t
  rw [Value.flushed5]
  funext j
  obtain ⟨u, v, q, rfl⟩ : ∃ (u v : Fin 1) (q : Fin 1024), j = ix3 u v q := ⟨j 0, j 1, j 2, eq_ix3 j⟩
  show (outsAt0 m c t.val t.isLt).1 (ix3 u v q) = Cert.Spec.rOut (ctxA m c) (gA m c) (bA m c) (wA m c) (wbA m c) (((cfg0.win 5).blk t).view.emb (ix3 u v q))
  refine (out_apply m c t ⟨t.val / 2, by omega⟩ (by show t.val = 2 * (t.val / 2) + 1; omega) u v q).trans
    (rOut_apply _ _ _ _ _ _ ⟨t.val / 2, by omega⟩ q ?_ ?_).symm
  · show win0_5.index t (0 : Fin 3) * 1 + 1 * u.val = t.val / 2; omega
  · show win0_5.index t (2 : Fin 3) * 1024 + 1 * q.val = q.val; omega

/-- An index of the result is in point t's block iff each coordinate is in the block's range on its axis. -/
theorem mem_blk (t : Fin cfg0.N) (i : S64x1x1024.Idx) :
    i ∈ ((cfg0.win 5).blk t).view.set ↔ ∀ a : Fin 3, win0_5.index t a * S1x1x1024.size a ≤ (i a).val ∧ (i a).val < win0_5.index t a * S1x1x1024.size a + S1x1x1024.size a := by
  show i ∈ ((View.whole main_v1).slice (win0_5.rect t)).set ↔ _
  rw [View.set_slice_whole, Rect.mem_set_unit]
  exact Iff.rfl

/-- Row β of the result is covered by the second half of batch β. -/
theorem cover (i : S64x1x1024.Idx) : ∃ t : Fin cfg0.N, (cfg0.win 5).flush t = true ∧ i ∈ ((cfg0.win 5).blk t).view.set := by
  have hi0 : (i 0).val < 64 := (i 0).isLt
  have hi1 : (i 1).val < 1 := (i 1).isLt
  have hi2 : (i 2).val < 1024 := (i 2).isLt
  have hlt : 2 * (i 0).val + 1 < cfg0.N := by rw [show cfg0.N = 128 from N_0]; omega
  refine ⟨⟨2 * (i 0).val + 1, hlt⟩, (flush0_5 _).mpr (by show (2 * (i 0).val + 1) % 2 = 1; omega), ?_⟩
  obtain ⟨-, -, -, -, -, -, -, -, -, -, -, e0, e1, e2⟩ := idx_facts ⟨2 * (i 0).val + 1, hlt⟩
  have e0' : win0_5.index ⟨2 * (i 0).val + 1, hlt⟩ (0 : Fin 3) = (i 0).val := by rw [e0]; show (2 * (i 0).val + 1) / 2 = (i 0).val; omega
  rw [mem_blk]
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 1 ≤ (i 1).val ∧ (i 1).val < win0_5.index _ (1 : Fin 3) * 1 + 1; omega
  | ⟨2, _⟩ => show win0_5.index _ (2 : Fin 3) * 1024 ≤ (i 2).val ∧ (i 2).val < win0_5.index _ (2 : Fin 3) * 1024 + 1024; omega

/-- So the result array ends at the specification of the launched arguments. -/
theorem final (c : Dev nD) :
    (dats m 0 c).arrAt 5 cfg0.N = Cert.Spec.rOut (ctxA m c) (gA m c) (bA m c) (wA m c) (wbA m c) :=
  (dats m 0 c).arrAt_eq_of_cover 5 (Cert.Spec.rOut (ctxA m c) (gA m c) (bA m c) (wA m c) (wbA m c)) (fun t hf => flushed_eq m c t hf) cover

/-- Every weakly fair execution of the reference ends with its result at rOut of the launched arguments, the arguments
    unchanged. -/
theorem run_value : θ_run (defs (F := Ideal)) (onTc (τ := τ) (main (F := Ideal))) ⟨m, fun _ => 0, ρ⟩ fun r => ∀ c : Dev nD,
      r.2.mem ((c : Thread nD τ).loc main_v1)
        = Cert.Spec.rOut (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Run

end Cert.ReferenceIdeal.Hand

end
-- ==== Proof.Algebra.lean ====
/-
  The two pooled vectors agree on finite data.

  On real numbers the variance Σ(v − μ)²/n equals (Σ v²)/n − μ², so the two reciprocal square roots are one number r,
  which is a real because the variance is nonnegative and ε is positive; then Σ((v − μ)·r·g + b) over 512 rows, scaled by
  1/512, is g·(Σ r·v − Σ μ·r)/512 + b. Every step is a law of the reals; the extended reals enter only through the
  entries being finite.
-/
import proofs.«152959_g2000505949230300_pallasbulk_1065_16_alg».proof.Proof.Spec

noncomputable section

open scoped BigOperators

namespace Cert.Spec

open Idealize.ShloMosaic Idealize.ShloMosaic.ValueIdx

/-! ## The four literals as reals -/

/-- The word 0x3A800000 denotes 2⁻¹⁰ = 1/1024. -/
theorem cInvD_eq : cInvD = ((1 / 1024 : ℝ) : EReal) := by
  unfold cInvD
  simp [Ideal.ofBits, Ideal.ieee, -EReal.coe_mul]; norm_num

/-- The word 0x44800000 denotes 1024. -/
theorem cD_eq : cD = ((1024 : ℝ) : EReal) := by
  unfold cD
  simp [Ideal.ofBits, Ideal.ieee, -EReal.coe_mul]; norm_num

/-- The word 0x3B000000 denotes 2⁻⁹ = 1/512. -/
theorem cInvSeq_eq : cInvSeq = ((1 / 512 : ℝ) : EReal) := by
  unfold cInvSeq
  simp [Ideal.ofBits, Ideal.ieee, -EReal.coe_mul]; norm_num

/-- The word 0x3727C5AC denotes a positive real (10995116 · 2⁻⁴⁰). -/
theorem cEps_eq : ∃ e : ℝ, 0 < e ∧ cEps = (e : EReal) := by
  refine ⟨(10995116 : ℝ) * (2 : ℝ) ^ (-40 : Int), by positivity, ?_⟩
  unfold cEps
  simp [Ideal.ofBits, Ideal.ieee, -EReal.coe_mul]

/-! ## A finite sum of reals, read in the extended reals -/

theorem coe_sum {ι : Type} (s : Finset ι) (f : ι → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

/-! ## One row of reals -/

/-- The mean of a real row: (Σ w)/1024. -/
def muR (w : Fin 1024 → ℝ) : ℝ := (∑ k : Fin 1024, w k) * (1 / 1024)

/-- The reciprocal standard deviation of a real row, in the kernel's form of the variance. -/
def rstdR (e : ℝ) (w : Fin 1024 → ℝ) : ℝ :=
  (Real.sqrt ((∑ k : Fin 1024, w k * w k) * (1 / 1024) - muR w * muR w + e))⁻¹

theorem kMuRow_coe (w : Fin 1024 → ℝ) : kMuRow (fun k => (w k : EReal)) = ((muR w : ℝ) : EReal) := by
  show (∑ k : Fin 1024, ((w k : ℝ) : EReal)) * cInvD = _
  rw [cInvD_eq, coe_sum, ← EReal.coe_mul]
  rfl

theorem rMuRow_coe (w : Fin 1024 → ℝ) : rMuRow (fun k => (w k : EReal)) = ((muR w : ℝ) : EReal) := by
  show Ideal.div (∑ k : Fin 1024, ((w k : ℝ) : EReal)) cD = _
  rw [cD_eq, Ideal.div_coe (by norm_num), coe_sum, ← EReal.coe_mul]
  rfl

/-- Σ(w − μ)²/n = (Σ w²)/n − μ²: expand the square; Σ w = n·μ and Σ μ² = n·μ². -/
theorem var_identity (w : Fin 1024 → ℝ) :
    (∑ k : Fin 1024, (w k - muR w) * (w k - muR w)) * (1 / 1024)
      = (∑ k : Fin 1024, w k * w k) * (1 / 1024) - muR w * muR w := by
  have h : ∀ k : Fin 1024,
      (w k - muR w) * (w k - muR w) = w k * w k - (2 * muR w) * w k + muR w * muR w := fun k => by ring
  simp only [h]
  rw [Finset.sum_add_distrib, Finset.sum_sub_distrib, ← Finset.mul_sum, Finset.sum_const, Finset.card_univ,
    Fintype.card_fin, nsmul_eq_mul]
  unfold muR
  push_cast
  ring

/-- The variance is a sum of squares over n, so it is nonnegative. -/
theorem var_nonneg (w : Fin 1024 → ℝ) :
    0 ≤ (∑ k : Fin 1024, (w k - muR w) * (w k - muR w)) * (1 / 1024) := by
  apply mul_nonneg
  · exact Finset.sum_nonneg (fun k _ => mul_self_nonneg _)
  · norm_num

/-- With ε > 0 the argument of the reciprocal square root is a positive real. -/
theorem var_eps_pos {e : ℝ} (he : 0 < e) (w : Fin 1024 → ℝ) :
    0 < (∑ k : Fin 1024, w k * w k) * (1 / 1024) - muR w * muR w + e := by
  rw [← var_identity]
  have := var_nonneg w
  linarith

/-- At a positive real the reciprocal square root is the real one. -/
theorem rsqrt_pos {x : ℝ} (hx : 0 < x) : Ideal.rsqrt (x : EReal) = (((Real.sqrt x)⁻¹ : ℝ) : EReal) := by
  rw [Ideal.rsqrt_coe, if_neg (not_lt.mpr hx.le), if_neg hx.ne']

theorem kRstdRow_coe {e : ℝ} (he : 0 < e) (hε : cEps = (e : EReal)) (w : Fin 1024 → ℝ) :
    kRstdRow (fun k => (w k : EReal)) = ((rstdR e w : ℝ) : EReal) := by
  show Ideal.rsqrt (((∑ k : Fin 1024, (w k : EReal) * (w k : EReal)) * cInvD
    - kMuRow (fun k => (w k : EReal)) * kMuRow (fun k => (w k : EReal))) + cEps) = _
  rw [kMuRow_coe, cInvD_eq, hε]
  simp only [← EReal.coe_mul]
  rw [coe_sum, ← EReal.coe_mul, ← EReal.coe_sub, ← EReal.coe_add, rsqrt_pos (var_eps_pos he w)]
  rfl

theorem rRstdRow_coe {e : ℝ} (he : 0 < e) (hε : cEps = (e : EReal)) (w : Fin 1024 → ℝ) :
    rRstdRow (fun k => (w k : EReal)) = ((rstdR e w : ℝ) : EReal) := by
  show Ideal.rsqrt (Ideal.div (∑ k : Fin 1024, ((w k : EReal) - rMuRow (fun k => (w k : EReal)))
    * ((w k : EReal) - rMuRow (fun k => (w k : EReal)))) cD + cEps) = _
  rw [rMuRow_coe, cD_eq, hε, Ideal.div_coe (by norm_num)]
  simp only [← EReal.coe_sub, ← EReal.coe_mul]
  rw [coe_sum, ← EReal.coe_mul, ← EReal.coe_add, var_identity, rsqrt_pos (var_eps_pos he w)]
  rfl

/-! ## One half sequence of real rows -/

/-- The kernel's half-sequence value is a real h, and the reference's is h·g + 256·b:
    Σ_m ((v_m − μ_m)·r_m·g + b) = g·(Σ_m r_m·v_m − Σ_m μ_m·r_m) + 256·b. -/
theorem half_coe {e : ℝ} (he : 0 < e) (hε : cEps = (e : EReal)) (y : Fin 256 → Fin 1024 → ℝ)
    (g b : Fin 1024 → EReal) (k : Fin 1024) (gk bk : ℝ) (hg : g k = (gk : EReal)) (hb : b k = (bk : EReal)) :
    ∃ h : ℝ, kHalfOf (fun m j => (y m j : EReal)) k = (h : EReal) ∧
      rHalfOf (fun m j => (y m j : EReal)) g b k = ((h * gk + 256 * bk : ℝ) : EReal) := by
  refine ⟨(∑ m : Fin 256, rstdR e (y m) * y m k) - ∑ m : Fin 256, muR (y m) * rstdR e (y m), ?_, ?_⟩
  · show (∑ m : Fin 256, kRstdRow (fun j => (y m j : EReal)) * (y m k : EReal))
      - ∑ m : Fin 256, kMuRow (fun j => (y m j : EReal)) * kRstdRow (fun j => (y m j : EReal)) = _
    simp only [kRstdRow_coe he hε, kMuRow_coe, ← EReal.coe_mul]
    rw [coe_sum, coe_sum, ← EReal.coe_sub]
  · show (∑ m : Fin 256, ((((y m k : EReal) - rMuRow (fun j => (y m j : EReal)))
      * rRstdRow (fun j => (y m j : EReal))) * g k + b k)) = _
    simp only [rRstdRow_coe he hε, rMuRow_coe, hg, hb, ← EReal.coe_sub, ← EReal.coe_mul, ← EReal.coe_add]
    rw [coe_sum]
    congr 1
    have h : ∀ m : Fin 256, (y m k - muR (y m)) * rstdR e (y m) * gk + bk
        = (rstdR e (y m) * y m k - muR (y m) * rstdR e (y m)) * gk + bk := fun m => by ring
    simp only [h]
    rw [Finset.sum_add_distrib, ← Finset.sum_mul, Finset.sum_sub_distrib, Finset.sum_const, Finset.card_univ,
      Fintype.card_fin, nsmul_eq_mul]
    push_cast
    ring

/-! ## The pooled vectors -/

/-- The kernel's pooled vector is the reference's, column by column, when every entry of the two half sequences, of the
    gain and of the bias is a real number. -/
theorem pooled_eq (xa xb : Fin 256 → Fin 1024 → EReal) (g b : Fin 1024 → EReal)
    (hxa : ∀ m, Finite (xa m)) (hxb : ∀ m, Finite (xb m)) (hg : Finite g) (hb : Finite b) (k : Fin 1024) :
    kPooledOf xa xb g b k = rPooledOf xa xb g b k := by
  obtain ⟨e, he, hε⟩ := cEps_eq
  have hxa' : ∀ m j, ∃ r : ℝ, xa m j = (r : EReal) := hxa
  have hxb' : ∀ m j, ∃ r : ℝ, xb m j = (r : EReal) := hxb
  choose ya hya using hxa'
  choose yb hyb using hxb'
  obtain ⟨gk, hgk⟩ := hg k
  obtain ⟨bk, hbk⟩ := hb k
  have ea : xa = fun m j => (ya m j : EReal) := by funext m j; exact hya m j
  have eb : xb = fun m j => (yb m j : EReal) := by funext m j; exact hyb m j
  obtain ⟨sa, hka, hra⟩ := half_coe he hε ya g b k gk bk hgk hbk
  obtain ⟨sb, hkb, hrb⟩ := half_coe he hε yb g b k gk bk hgk hbk
  -- (sa + sb)·(1/512)·g + b = ((sa·g + 256·b) + (sb·g + 256·b))·(1/512), since 512·(1/512) = 1
  rw [ea, eb]
  unfold kPooledOf rPooledOf
  rw [hka, hkb, hra, hrb, hgk, hbk, cInvSeq_eq]
  simp only [← EReal.coe_add, ← EReal.coe_mul]
  congr 1
  ring

/-- So the two results are one array. -/
theorem out_eq (ctx : SCtx.Idx → EReal) (g b : SVec.Idx → EReal) (w : SMat.Idx → EReal) (wb : SBias.Idx → EReal)
    (hctx : Finite ctx) (hg : Finite g) (hb : Finite b) : kOut ctx g b w wb = rOut ctx g b w wb := by
  unfold kOut rOut
  congr 1
  funext β k
  exact pooled_eq _ _ _ _ (fun m k' => hctx _) (fun m k' => hctx _) (fun k' => hg _) (fun k' => hb _) k

end Cert.Spec

end
-- ==== Proof.Finite.lean ====
/-
  The precondition says every entry of every float argument is below +∞ in absolute value; at the extended reals that
  is: every entry is a real number.
-/
import proofs.«152959_g2000505949230300_pallasbulk_1065_16_alg».proof.Pre_finite_inputs
import proofs.«152959_g2000505949230300_pallasbulk_1065_16_alg».proof.Proof.Gen.Pre_finite_inputs
import proofs.«152959_g2000505949230300_pallasbulk_1065_16_alg».proof.Proof.Spec
import Idealize.ShloMosaic.Lib.ReduceAll

noncomputable section

namespace Cert.Spec

open Idealize.ShloMosaic Idealize.ShloMosaic.ValueIdx

/-- The word 0x7F800000 is +∞. -/
theorem ofBits_inf : Ideal.ofBits .f32 0x7F800000#32 = (⊤ : EReal) := by
  simp [Ideal.ofBits, Ideal.ieee]

/-- An extended real whose absolute value max x (−x) is strictly below +∞ is a real number. -/
theorem real_of_abs_lt_top (x : EReal) (h : Ideal.cmp .olt (max x (-x)) (⊤ : EReal) = 1#1) : ∃ r : ℝ, x = (r : EReal) := by
  induction x using EReal.rec with
  | bot => simp [Ideal.cmp] at h
  | top => simp [Ideal.cmp] at h
  | coe r => exact ⟨r, rfl⟩

/-- The rank-0 shape has one index. -/
instance subsingleton_scalar_idx : Subsingleton Cert.Pre_finite_inputs.S_.Idx := ⟨fun a b => funext fun d => d.elim0⟩

/-- One array: if the conjunction over all entries of "|x| < +∞" is one, every entry of x is a real number. -/
theorem finite_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu ix0 = 1#1) :
    Finite x := by
  intro i
  have hi := Host.reduce_andi_all _ _ hr hu ix0 h i
  refine real_of_abs_lt_top (x i) ?_
  rw [← ofBits_inf]
  exact hi

/-- From the printed predicate being all ones: the context, the gain and the bias hold real numbers only. -/
theorem finite_of_pre (a0 : FVec Ideal Cert.Pre_finite_inputs.S64x512x1024 .f32) (a1 a2 : FVec Ideal Cert.Pre_finite_inputs.S1x1024 .f32)
    (a3 : FVec Ideal Cert.Pre_finite_inputs.S1024x1024 .f32) (a4 : FVec Ideal Cert.Pre_finite_inputs.S1024 .f32)
    (h : Cert.Pre_finite_inputs.fn (F := Ideal) a0 a1 a2 a3 a4 = fun _ => 1#1) :
    Finite a0 ∧ Finite a1 ∧ Finite a2 := by
  have h0 := congrFun h ix0
  dsimp only [Cert.Pre_finite_inputs.fn, Cert.Pre_finite_inputs.fn_part1] at h0
  obtain ⟨h0123, -⟩ := IntOp.andi_eq_one.1 h0
  obtain ⟨h012, -⟩ := IntOp.andi_eq_one.1 h0123
  obtain ⟨h01, hc⟩ := IntOp.andi_eq_one.1 h012
  obtain ⟨ha, hb⟩ := IntOp.andi_eq_one.1 h01
  exact ⟨finite_of_all a0 _ _ _ ha, finite_of_all a1 _ _ _ hb, finite_of_all a2 _ _ _ hc⟩

end Cert.Spec

end
-- ==== Proof.lean ====
/-
  The certificate: a fused layer norm, mean over the sequence and linear layer, in two arrangements.

  The kernel pools eight batches per grid point over the whole sequence, reading the context through two windows on one
  array, takes the variance as E[x²] − E[x]², does the weighted row sums as block-diagonal matrix products, and applies
  the gain and bias after pooling. The reference walks one batch and half a sequence per grid point, takes the variance
  as E[(x − E[x])²], applies gain and bias row by row and accumulates the rows in a buffer it carries between grid points. On finite inputs the two results are
  one array over the reals: the two variances agree, ε > 0 keeps the reciprocal square root real, and summing commutes
  with the affine map. Both programs run to completion and leave their arguments as launched; the kernel's idealized
  text is its own text (no rewrite was applied).
-/
import proofs.«152959_g2000505949230300_pallasbulk_1065_16_alg».proof.Defs
import proofs.«152959_g2000505949230300_pallasbulk_1065_16_alg».proof.Proof.Gen.Kernel
import proofs.«152959_g2000505949230300_pallasbulk_1065_16_alg».proof.Proof.Gen.KernelIdeal
import proofs.«152959_g2000505949230300_pallasbulk_1065_16_alg».proof.Proof.Gen.ReferenceIdeal
import proofs.«152959_g2000505949230300_pallasbulk_1065_16_alg».proof.Proof.Gen.ReferenceIdeal.Frame
import proofs.«152959_g2000505949230300_pallasbulk_1065_16_alg».proof.Proof.Gen.Pre_finite_inputs
import proofs.«152959_g2000505949230300_pallasbulk_1065_16_alg».proof.Proof.KLaunchB
import proofs.«152959_g2000505949230300_pallasbulk_1065_16_alg».proof.Proof.KValue
import proofs.«152959_g2000505949230300_pallasbulk_1065_16_alg».proof.Proof.RefValue
import proofs.«152959_g2000505949230300_pallasbulk_1065_16_alg».proof.Proof.Algebra
import proofs.«152959_g2000505949230300_pallasbulk_1065_16_alg».proof.Proof.Finite
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ =>
  (θ_run (Cert.Kernel.defs (F := Bits)) _ _).mono (fun _ h c => (h c).2) (Cert.Kernel.Hand.run_main (F := Bits) m ρ)

/-- So does the same text read over the extended reals. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- The reference's frame. -/
theorem frame_ri : Cert.frame_ReferenceIdeal := fun m ρ _ => Cert.ReferenceIdeal.Gen.frame m ρ

/-- No operation was rewritten for the ideal reading. -/
theorem preserves : Cert.preserves_Kernel_KernelIdeal := trivial

/-- From memories agreeing on the arguments the two programs end with one result: each ends at its side of the
    specification of its own arguments; the arguments agree and are finite, where the two sides are one array. -/
theorem algebraic : Cert.algebraic_KernelIdeal_ReferenceIdeal := by
  intro m ρ m' ρ' hpre hagree
  refine ⟨fun c => Cert.KernelIdeal.Hand.kOutOf m c, Cert.KernelIdeal.Hand.run_value m ρ, ?_⟩
  refine (θ_run (Cert.ReferenceIdeal.defs (F := Ideal)) _ _).mono (fun _ h c => ⟨(h c).1.trans ?_, (h c).2⟩)
    (Cert.ReferenceIdeal.Hand.run_value m' ρ')
  obtain ⟨hctx, hg, hb⟩ := Cert.Spec.finite_of_pre _ _ _ _ _ (hpre c)
  rw [(hagree c).1, (hagree c).2.1, (hagree c).2.2.1, (hagree c).2.2.2.1, (hagree c).2.2.2.2]
  exact (Cert.Spec.out_eq _ _ _ _ _ hctx hg hb).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
